-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x512x512 : Shape := ⟨4, ![4, 16, 512, 512]⟩
abbrev S4x512x512 : Shape := ⟨3, ![4, 512, 512]⟩
abbrev S_ : Shape := ⟨0, ![]⟩

class Facts : Prop where
  bcast_S_S4x16x512x512 : S_.BroadcastsInDim S4x16x512x512 (![] : Fin 0 → Fin S4x16x512x512.rank)
  reducesTo_S4x16x512x512_S_d0_1_2_3 : S4x16x512x512.ReducesTo [0, 1, 2, 3] S_
  h_S_ : 0 < S_.numel
  bcast_S_S4x512x512 : S_.BroadcastsInDim S4x512x512 (![] : Fin 0 → Fin S4x512x512.rank)
  reducesTo_S4x512x512_S_d0_1_2 : S4x512x512.ReducesTo [0, 1, 2] S_

variable [Facts]

def fn {F : FTy → Type} [FloatOps F] (main_arg0 : FVec F S4x16x512x512 .f32) (main_arg1 : IVec S4x512x512 32) : IVec S_ 1 :=
  let main_v0 : FVec F S4x16x512x512 .f32 := Host.absf main_arg0
  let main_cst : FVec F S_ .f32 := constant S_ .f32 0x7F800000#32
  let main_v1 : FVec F S4x16x512x512 .f32 := broadcastInDim S4x16x512x512 ![] bcast_S_S4x16x512x512 main_cst
  let main_v2 : IVec S4x16x512x512 1 := cmpf .olt main_v0 main_v1
  let main_c : IVec S_ 1 := constantI S_ 1 1#1
  let main_v3 : IVec S_ 1 := (fun x v => Host.reduce IntOp.andi x v reducesTo_S4x16x512x512_S_d0_1_2_3 h_S_) main_v2 main_c
  let main_c_0 : IVec S_ 32 := constantI S_ 32 0#32
  let main_v4 : IVec S4x512x512 32 := broadcastInDim S4x512x512 ![] bcast_S_S4x512x512 main_c_0
  let main_v5 : IVec S4x512x512 1 := cmpi .sge main_arg1 main_v4
  let main_c_1 : IVec S_ 32 := constantI S_ 32 8#32
  let main_v6 : IVec S4x512x512 32 := broadcastInDim S4x512x512 ![] bcast_S_S4x512x512 main_c_1
  let main_v7 : IVec S4x512x512 1 := cmpi .slt main_arg1 main_v6
  let main_v8 : IVec S4x512x512 1 := andi main_v5 main_v7
  let main_c_2 : IVec S_ 1 := constantI S_ 1 1#1
  let main_v9 : IVec S_ 1 := (fun x v => Host.reduce IntOp.andi x v reducesTo_S4x512x512_S_d0_1_2 h_S_) main_v8 main_c_2
  let main_v10 : IVec S_ 1 := andi main_v3 main_v9
  main_v10
-- ==== Kernel.lean ====
abbrev S4x16x512x512 : Shape := ⟨4, ![4, 16, 512, 512]⟩
abbrev S4x512x512 : Shape := ⟨3, ![4, 512, 512]⟩
abbrev S4x16x262144 : Shape := ⟨3, ![4, 16, 262144]⟩
abbrev S4x1x262144 : Shape := ⟨3, ![4, 1, 262144]⟩
abbrev S4x17x8 : Shape := ⟨3, ![4, 17, 8]⟩
abbrev S1x16x65536 : Shape := ⟨3, ![1, 16, 65536]⟩
abbrev S1x1x65536 : Shape := ⟨3, ![1, 1, 65536]⟩
abbrev S1x17x8 : Shape := ⟨3, ![1, 17, 8]⟩
abbrev S17x8 : Shape := ⟨2, ![17, 8]⟩
abbrev S16x65536 : Shape := ⟨2, ![16, 65536]⟩
abbrev S1x65536 : Shape := ⟨2, ![1, 65536]⟩
abbrev S8x65536 : Shape := ⟨2, ![8, 65536]⟩
abbrev S16x8 : Shape := ⟨2, ![16, 8]⟩
abbrev S1x8 : Shape := ⟨2, ![1, 8]⟩
abbrev S1x16x8 : Shape := ⟨3, ![1, 16, 8]⟩
abbrev S1x1x8 : Shape := ⟨3, ![1, 1, 8]⟩
abbrev S4x16x8 : Shape := ⟨3, ![4, 16, 8]⟩
abbrev S4x1x8 : Shape := ⟨3, ![4, 1, 8]⟩
abbrev S4x8 : Shape := ⟨2, ![4, 8]⟩
abbrev S_ : Shape := ⟨0, ![]⟩
abbrev S4 : Shape := ⟨1, ![4]⟩
abbrev S4x1x1 : Shape := ⟨3, ![4, 1, 1]⟩
abbrev S1x1x1 : Shape := ⟨3, ![1, 1, 1]⟩
abbrev S1x1 : Shape := ⟨2, ![1, 1]⟩
abbrev S65536 : Shape := ⟨1, ![65536]⟩
abbrev S1 : Shape := ⟨1, ![1]⟩

abbrev nBuf : Space → Nat
  | .hbm => 26
  | .vmem => 14
  | .smem => 0
  | _ => 0

abbrev bufTy : (tb : Table) → Fin (tcTables nBuf tb) → BufTy
  | .hbm, ⟨0, _⟩ => ⟨S4x16x512x512, .f32⟩
  | .hbm, ⟨1, _⟩ => ⟨S4x512x512, .i32⟩
  | .hbm, ⟨2, _⟩ => ⟨S4x16x262144, .f32⟩
  | .hbm, ⟨3, _⟩ => ⟨S4x1x262144, .i32⟩
  | .hbm, ⟨4, _⟩ => ⟨S4x17x8, .f32⟩
  | .hbm, ⟨5, _⟩ => ⟨S4x16x8, .f32⟩
  | .hbm, ⟨6, _⟩ => ⟨S4x1x8, .f32⟩
  | .hbm, ⟨7, _⟩ => ⟨S4x8, .f32⟩
  | .hbm, ⟨8, _⟩ => ⟨S4x1x8, .f32⟩
  | .hbm, ⟨9, _⟩ => ⟨S4x16x8, .f32⟩
  | .hbm, ⟨10, _⟩ => ⟨S4x16x8, .f32⟩
  | .hbm, ⟨11, _⟩ => ⟨S_, .f32⟩
  | .hbm, ⟨12, _⟩ => ⟨S4x8, .f32⟩
  | .hbm, ⟨13, _⟩ => ⟨S4x8, .f32⟩
  | .hbm, ⟨14, _⟩ => ⟨S_, .f32⟩
  | .hbm, ⟨15, _⟩ => ⟨S4, .f32⟩
  | .hbm, ⟨16, _⟩ => ⟨S_, .f32⟩
  | .hbm, ⟨17, _⟩ => ⟨S4, .f32⟩
  | .hbm, ⟨18, _⟩ => ⟨S4, .f32⟩
  | .hbm, ⟨19, _⟩ => ⟨S4x1x1, .f32⟩
  | .hbm, ⟨20, _⟩ => ⟨S4, .f32⟩
  | .hbm, ⟨21, _⟩ => ⟨S4, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .local _ .vmem, ⟨0, _⟩ => ⟨S1x16x65536, .f32⟩
  | .local _ .vmem, ⟨1, _⟩ => ⟨S1x16x65536, .f32⟩
  | .local _ .vmem, ⟨2, _⟩ => ⟨S1x1x65536, .i32⟩
  | .local _ .vmem, ⟨3, _⟩ => ⟨S1x1x65536, .i32⟩
  | .local _ .vmem, ⟨4, _⟩ => ⟨S1x17x8, .f32⟩
  | .local _ .vmem, ⟨5, _⟩ => ⟨S1x17x8, .f32⟩
  | .local _ .vmem, ⟨6, _⟩ => ⟨S1x16x65536, .f32⟩
  | .local _ .vmem, ⟨7, _⟩ => ⟨S1x16x65536, .f32⟩
  | .local _ .vmem, ⟨8, _⟩ => ⟨S1x1x65536, .i32⟩
  | .local _ .vmem, ⟨9, _⟩ => ⟨S1x1x65536, .i32⟩
  | .local _ .vmem, ⟨10, _⟩ => ⟨S1x16x8, .f32⟩
  | .local _ .vmem, ⟨11, _⟩ => ⟨S1x16x8, .f32⟩
  | .local _ .vmem, ⟨12, _⟩ => ⟨S1x1x1, .f32⟩
  | .local _ .vmem, ⟨13, _⟩ => ⟨S1x1x1, .f32⟩
  | _, _ => ⟨S4x16x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x65536 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x17x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x16x65536 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x65536 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x16x8 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S4x16x512x512_S4x16x262144 : S4x16x512x512.ShapeCasts S4x16x262144
  shapeCasts_S4x512x512_S4x1x262144 : S4x512x512.ShapeCasts S4x1x262144
  inb_S1x17x8_S1x17x8_0_0_0 : ∀ a, (![0, 0, 0] : Fin 3 → Nat) a + S1x17x8.size a ≤ S1x17x8.size a
  h_S1x17x8 : 0 < S1x17x8.numel
  shapeCasts_S1x17x8_S17x8 : S1x17x8.ShapeCasts S17x8
  shapeCasts_S17x8_S1x17x8 : S17x8.ShapeCasts S1x17x8
  inb_S1x16x65536_S1x16x65536_0_0_0 : ∀ a, (![0, 0, 0] : Fin 3 → Nat) a + S1x16x65536.size a ≤ S1x16x65536.size a
  h_S1x16x65536 : 0 < S1x16x65536.numel
  shapeCasts_S1x16x65536_S16x65536 : S1x16x65536.ShapeCasts S16x65536
  inb_S1x1x65536_S1x1x65536_0_0_0 : ∀ a, (![0, 0, 0] : Fin 3 → Nat) a + S1x1x65536.size a ≤ S1x1x65536.size a
  h_S1x1x65536 : 0 < S1x1x65536.numel
  shapeCasts_S1x1x65536_S1x65536 : S1x1x65536.ShapeCasts S1x65536
  iota_S8x65536_d0_w32 : S8x65536.Iotas .tc 32 [0]
  shapeCasts_S1x65536_S1x65536 : S1x65536.ShapeCasts S1x65536
  broadcasts_S1x65536_S8x65536 : S1x65536.Broadcasts S8x65536
  natLt_1_32 : 1 < 32
  bitsLt_bf16_f32 : FTy.bits .bf16 < FTy.bits .f32
  inb_S1x17x8_S1x16x8_0_0_0 : ∀ a, (![0, 0, 0] : Fin 3 → Nat) a + S1x16x8.size a ≤ S1x17x8.size a
  h_S1x16x8 : 0 < S1x16x8.numel
  shapeCasts_S1x16x8_S16x8 : S1x16x8.ShapeCasts S16x8
  shapeCasts_S16x8_S1x16x8 : S16x8.ShapeCasts S1x16x8
  inb_S1x17x8_S1x1x8_0_16_0 : ∀ a, (![0, 16, 0] : Fin 3 → Nat) a + S1x1x8.size a ≤ S1x17x8.size a
  h_S1x1x8 : 0 < S1x1x8.numel
  shapeCasts_S1x1x8_S1x8 : S1x1x8.ShapeCasts S1x8
  shapeCasts_S1x8_S1x1x8 : S1x8.ShapeCasts S1x1x8
  slices_S4x17x8_S4x16x8_0_0_0 : S4x17x8.Slices ![0, 0, 0] S4x16x8
  slices_S4x17x8_S4x1x8_0_16_0 : S4x17x8.Slices ![0, 16, 0] S4x1x8
  shapeCasts_S4x1x8_S4x8 : S4x1x8.ShapeCasts S4x8
  bcast_S4x8_S4x1x8_0_2 : S4x8.BroadcastsInDim S4x1x8 (![0, 2] : Fin 2 → Fin S4x1x8.rank)
  bcast_S4x1x8_S4x16x8_0_1_2 : S4x1x8.BroadcastsInDim S4x16x8 (![0, 1, 2] : Fin 3 → Fin S4x16x8.rank)
  bcast_S_S4x8 : S_.BroadcastsInDim S4x8 (![] : Fin 0 → Fin S4x8.rank)
  reducesTo_S4x8_S4_d1 : S4x8.ReducesTo [1] S4
  h_S_ : 0 < S_.numel
  bcast_S_S4 : S_.BroadcastsInDim S4 (![] : Fin 0 → Fin S4.rank)
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  inb_S1x16x8_S1x16x8_0_0_0 : ∀ a, (![0, 0, 0] : Fin 3 → Nat) a + S1x16x8.size a ≤ S1x16x8.size a
  reduces_S16x65536_S65536 : S16x65536.Reduces [0] S65536
  shapeCasts_S65536_S1x65536 : S65536.ShapeCasts S1x65536
  reduces_S1x65536_S1 : S1x65536.Reduces [1] S1
  shapeCasts_S1_S1x1 : S1.ShapeCasts S1x1
  shapeCasts_S4x1x1_S4 : S4x1x1.ShapeCasts S4
  reducesTo_S4_S_d0 : S4.ReducesTo [0] S_
  dot_S16x65536_S8x65536_S16x8_1_1_0_0_n_n_wf : DotDims.WF S16x65536 S8x65536 S16x8 [1] [1] [0] [0] [] []
  dot_S1x65536_S8x65536_S1x8_1_1_0_0_n_n_wf : DotDims.WF S1x65536 S8x65536 S1x8 [1] [1] [0] [0] [] []
  dot_S16x8_S8x65536_S16x65536_1_0_0_1_n_n_wf : DotDims.WF S16x8 S8x65536 S16x65536 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x65536.size a ≤ S4x16x262144.size a
  hwx0_0 : ∀ i : grid0.Coords, EltTy.bits .f32 = 32 ∨ (Rect.block (s := S4x16x262144) S1x16x65536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x65536.size a ≤ S4x1x262144.size a
  hwx0_1 : ∀ i : grid0.Coords, EltTy.bits .i32 = 32 ∨ (Rect.block (s := S4x1x262144) S1x1x65536.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x17x8.size a ≤ S4x17x8.size a
  hwx0_2 : ∀ i : grid0.Coords, EltTy.bits .f32 = 32 ∨ (Rect.block (s := S4x17x8) S1x17x8.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x16x65536.size a ≤ S4x16x262144.size a
  hwx1_0 : ∀ i : grid1.Coords, EltTy.bits .f32 = 32 ∨ (Rect.block (s := S4x16x262144) S1x16x65536.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x65536.size a ≤ S4x1x262144.size a
  hwx1_1 : ∀ i : grid1.Coords, EltTy.bits .i32 = 32 ∨ (Rect.block (s := S4x1x262144) S1x1x65536.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x16x8.size a ≤ S4x16x8.size a
  hwx1_2 : ∀ i : grid1.Coords, EltTy.bits .f32 = 32 ∨ (Rect.block (s := S4x16x8) S1x16x8.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x1.size a ≤ S4x1x1.size a
  hwx1_3 : ∀ i : grid1.Coords, EltTy.bits .f32 = 32 ∨ (Rect.block (s := S4x1x1) S1x1x1.size (cc1_transform_3 i) (hinb1_3 i)).WholeWords (EltTy.packing .f32)

variable [Facts₀]

def dot_S16x65536_S8x65536_S16x8_1_1_0_0_n_n : DotDims S16x65536 S8x65536 S16x8 where
  lhsContracting := [1]
  rhsContracting := [1]
  lhsNonContracting := [0]
  rhsNonContracting := [0]
  lhsBatch := []
  rhsBatch := []
  wf := dot_S16x65536_S8x65536_S16x8_1_1_0_0_n_n_wf
def dot_S1x65536_S8x65536_S1x8_1_1_0_0_n_n : DotDims S1x65536 S8x65536 S1x8 where
  lhsContracting := [1]
  rhsContracting := [1]
  lhsNonContracting := [0]
  rhsNonContracting := [0]
  lhsBatch := []
  rhsBatch := []
  wf := dot_S1x65536_S8x65536_S1x8_1_1_0_0_n_n_wf
def dot_S16x8_S8x65536_S16x65536_1_0_0_1_n_n : DotDims S16x8 S8x65536 S16x65536 where
  lhsContracting := [1]
  rhsContracting := [0]
  lhsNonContracting := [0]
  rhsNonContracting := [1]
  lhsBatch := []
  rhsBatch := []
  wf := dot_S16x8_S8x65536_S16x65536_1_0_0_1_n_n_wf

abbrev win0_0 : Pipeline.Window sig grid0 :=
  Pipeline.Window.ofSpec (Memref.whole main_v0) S1x16x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x65536.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x17x8.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S1x16x65536.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x1x65536.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x16x8.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14) S1x1x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x16x512x512 : Shape := ⟨4, ![4, 16, 512, 512]⟩
abbrev S4x512x512 : Shape := ⟨3, ![4, 512, 512]⟩
abbrev S4x16x262144 : Shape := ⟨3, ![4, 16, 262144]⟩
abbrev S4x262144 : Shape := ⟨2, ![4, 262144]⟩
abbrev S4x262144x1 : Shape := ⟨3, ![4, 262144, 1]⟩
abbrev S8 : Shape := ⟨1, ![8]⟩
abbrev S1x1x8 : Shape := ⟨3, ![1, 1, 8]⟩
abbrev S4x262144x8 : Shape := ⟨3, ![4, 262144, 8]⟩
abbrev S_ : Shape := ⟨0, ![]⟩
abbrev S4x8 : Shape := ⟨2, ![4, 8]⟩
abbrev S4x16x8 : Shape := ⟨3, ![4, 16, 8]⟩
abbrev S4x1x8 : Shape := ⟨3, ![4, 1, 8]⟩
abbrev S4x16x1x8 : Shape := ⟨4, ![4, 16, 1, 8]⟩
abbrev S4x16x262144x1 : Shape := ⟨4, ![4, 16, 262144, 1]⟩
abbrev S4x16x262144x8 : Shape := ⟨4, ![4, 16, 262144, 8]⟩
abbrev S4x1x262144x8 : Shape := ⟨4, ![4, 1, 262144, 8]⟩
abbrev S4 : Shape := ⟨1, ![4]⟩

abbrev nBuf : Space → Nat
  | .hbm => 70
  | .vmem => 0
  | .smem => 0
  | _ => 0

abbrev bufTy : (tb : Table) → Fin (tcTables nBuf tb) → BufTy
  | .hbm, ⟨0, _⟩ => ⟨S4x16x512x512, .f32⟩
  | .hbm, ⟨1, _⟩ => ⟨S4x512x512, .i32⟩
  | .hbm, ⟨2, _⟩ => ⟨S4x16x262144, .f32⟩
  | .hbm, ⟨3, _⟩ => ⟨S4x262144, .i32⟩
  | .hbm, ⟨4, _⟩ => ⟨S4x262144x1, .i32⟩
  | .hbm, ⟨5, _⟩ => ⟨S8, .i32⟩
  | .hbm, ⟨6, _⟩ => ⟨S1x1x8, .i32⟩
  | .hbm, ⟨7, _⟩ => ⟨S4x262144x8, .i32⟩
  | .hbm, ⟨8, _⟩ => ⟨S4x262144x8, .i32⟩
  | .hbm, ⟨9, _⟩ => ⟨S4x262144x8, .i1⟩
  | .hbm, ⟨10, _⟩ => ⟨S4x262144x8, .f32⟩
  | .hbm, ⟨11, _⟩ => ⟨S_, .f32⟩
  | .hbm, ⟨12, _⟩ => ⟨S4x8, .f32⟩
  | .hbm, ⟨13, _⟩ => ⟨S4x16x8, .f32⟩
  | .hbm, ⟨14, _⟩ => ⟨S4x1x8, .f32⟩
  | .hbm, ⟨15, _⟩ => ⟨S4x16x8, .f32⟩
  | .hbm, ⟨16, _⟩ => ⟨S4x16x8, .f32⟩
  | .hbm, ⟨17, _⟩ => ⟨S4x16x1x8, .f32⟩
  | .hbm, ⟨18, _⟩ => ⟨S4x16x262144x1, .f32⟩
  | .hbm, ⟨19, _⟩ => ⟨S4x16x262144x8, .f32⟩
  | .hbm, ⟨20, _⟩ => ⟨S4x16x262144x8, .f32⟩
  | .hbm, ⟨21, _⟩ => ⟨S4x16x262144x8, .f32⟩
  | .hbm, ⟨22, _⟩ => ⟨S4x1x262144x8, .f32⟩
  | .hbm, ⟨23, _⟩ => ⟨S4x16x262144x8, .f32⟩
  | .hbm, ⟨24, _⟩ => ⟨S4x16x262144x8, .f32⟩
  | .hbm, ⟨25, _⟩ => ⟨S4x16x262144x8, .f32⟩
  | .hbm, ⟨26, _⟩ => ⟨S_, .f32⟩
  | .hbm, ⟨27, _⟩ => ⟨S4x262144x8, .f32⟩
  | .hbm, ⟨28, _⟩ => ⟨S_, .f32⟩
  | .hbm, ⟨29, _⟩ => ⟨S4x262144x8, .f32⟩
  | .hbm, ⟨30, _⟩ => ⟨S4x262144x8, .i1⟩
  | .hbm, ⟨31, _⟩ => ⟨S_, .f32⟩
  | .hbm, ⟨32, _⟩ => ⟨S4x262144x8, .f32⟩
  | .hbm, ⟨33, _⟩ => ⟨S4x262144x8, .i1⟩
  | .hbm, ⟨34, _⟩ => ⟨S_, .f32⟩
  | .hbm, ⟨35, _⟩ => ⟨S_, .f32⟩
  | .hbm, ⟨36, _⟩ => ⟨S4x262144x8, .f32⟩
  | .hbm, ⟨37, _⟩ => ⟨S4x262144x8, .f32⟩
  | .hbm, ⟨38, _⟩ => ⟨S4x262144x8, .f32⟩
  | .hbm, ⟨39, _⟩ => ⟨S_, .f32⟩
  | .hbm, ⟨40, _⟩ => ⟨S_, .f32⟩
  | .hbm, ⟨41, _⟩ => ⟨S4x262144x8, .f32⟩
  | .hbm, ⟨42, _⟩ => ⟨S4x262144x8, .f32⟩
  | .hbm, ⟨43, _⟩ => ⟨S_, .f32⟩
  | .hbm, ⟨44, _⟩ => ⟨S4x262144x8, .f32⟩
  | .hbm, ⟨45, _⟩ => ⟨S4x262144x8, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S4x262144x8, .f32⟩
  | .hbm, ⟨50, _⟩ => ⟨S4x262144x8, .f32⟩
  | .hbm, ⟨51, _⟩ => ⟨S_, .f32⟩
  | .hbm, ⟨52, _⟩ => ⟨S4x262144x8, .f32⟩
  | .hbm, ⟨53, _⟩ => ⟨S4x262144x8, .f32⟩
  | .hbm, ⟨54, _⟩ => ⟨S4x262144x8, .f32⟩
  | .hbm, ⟨55, _⟩ => ⟨S_, .f32⟩
  | .hbm, ⟨56, _⟩ => ⟨S4, .f32⟩
  | .hbm, ⟨57, _⟩ => ⟨S_, .f32⟩
  | .hbm, ⟨58, _⟩ => ⟨S4x8, .f32⟩
  | .hbm, ⟨59, _⟩ => ⟨S4x8, .f32⟩
  | .hbm, ⟨60, _⟩ => ⟨S_, .f32⟩
  | .hbm, ⟨61, _⟩ => ⟨S4, .f32⟩
  | .hbm, ⟨62, _⟩ => ⟨S4, .f32⟩
  | .hbm, ⟨63, _⟩ => ⟨S_, .f32⟩
  | .hbm, ⟨64, _⟩ => ⟨S4, .f32⟩
  | .hbm, ⟨65, _⟩ => ⟨S4, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | _, _ => ⟨S4x16x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_cst_0 : Ref sig .tc := ⟨.hbm, 26, rfl⟩
abbrev main_v23 : Ref sig .tc := ⟨.hbm, 27, rfl⟩
abbrev main_cst_1 : Ref sig .tc := ⟨.hbm, 28, rfl⟩
abbrev main_v24 : Ref sig .tc := ⟨.hbm, 29, rfl⟩
abbrev main_v25 : Ref sig .tc := ⟨.hbm, 30, rfl⟩
abbrev main_cst_2 : Ref sig .tc := ⟨.hbm, 31, rfl⟩
abbrev main_v26 : Ref sig .tc := ⟨.hbm, 32, rfl⟩
abbrev main_v27 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v28 : Ref sig .tc := ⟨.hbm, 37, rfl⟩
abbrev main_v29 : Ref sig .tc := ⟨.hbm, 38, rfl⟩
abbrev main_cst_4 : Ref sig .tc := ⟨.hbm, 39, rfl⟩
abbrev main_call1_v0 : Ref sig .tc := ⟨.hbm, 40, rfl⟩
abbrev main_call1_v1 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_cst_7 : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_call2_v3 : Ref sig .tc := ⟨.hbm, 51, rfl⟩
abbrev main_call2_v4 : Ref sig .tc := ⟨.hbm, 52, rfl⟩
abbrev main_v33 : Ref sig .tc := ⟨.hbm, 53, rfl⟩
abbrev main_v34 : Ref sig .tc := ⟨.hbm, 54, rfl⟩
abbrev main_cst_8 : Ref sig .tc := ⟨.hbm, 55, rfl⟩
abbrev main_v35 : Ref sig .tc := ⟨.hbm, 56, rfl⟩
abbrev main_cst_9 : Ref sig .tc := ⟨.hbm, 57, rfl⟩
abbrev main_v36 : Ref sig .tc := ⟨.hbm, 58, rfl⟩
abbrev main_v37 : Ref sig .tc := ⟨.hbm, 59, rfl⟩
abbrev main_cst_10 : Ref sig .tc := ⟨.hbm, 60, rfl⟩
abbrev main_v38 : Ref sig .tc := ⟨.hbm, 61, rfl⟩
abbrev main_v39 : Ref sig .tc := ⟨.hbm, 62, rfl⟩
abbrev main_cst_11 : Ref sig .tc := ⟨.hbm, 63, rfl⟩
abbrev main_v40 : Ref sig .tc := ⟨.hbm, 64, rfl⟩
abbrev main_v41 : Ref sig .tc := ⟨.hbm, 65, rfl⟩
abbrev main_cst_12 : Ref sig .tc := ⟨.hbm, 66, rfl⟩
abbrev main_v42 : Ref sig .tc := ⟨.hbm, 67, rfl⟩
abbrev main_cst_13 : Ref sig .tc := ⟨.hbm, 68, rfl⟩
abbrev main_v43 : Ref sig .tc := ⟨.hbm, 69, rfl⟩

abbrev nD : Nat := 1
abbrev τ : Topo := Topo.v7x

variable {F : FTy → Type} [FloatOps F]

class Facts₀ : Prop where
  shapeCasts_S4x16x512x512_S4x16x262144 : S4x16x512x512.ShapeCasts S4x16x262144
  shapeCasts_S4x512x512_S4x262144 : S4x512x512.ShapeCasts S4x262144
  bcast_S4x262144_S4x262144x1_0_1 : S4x262144.BroadcastsInDim S4x262144x1 (![0, 1] : Fin 2 → Fin S4x262144x1.rank)
  bcast_S8_S1x1x8_2 : S8.BroadcastsInDim S1x1x8 (![2] : Fin 1 → Fin S1x1x8.rank)
  bcast_S4x262144x1_S4x262144x8_0_1_2 : S4x262144x1.BroadcastsInDim S4x262144x8 (![0, 1, 2] : Fin 3 → Fin S4x262144x8.rank)
  bcast_S1x1x8_S4x262144x8_0_1_2 : S1x1x8.BroadcastsInDim S4x262144x8 (![0, 1, 2] : Fin 3 → Fin S4x262144x8.rank)
  reducesTo_S4x262144x8_S4x8_d1 : S4x262144x8.ReducesTo [1] S4x8
  h_S_ : 0 < S_.numel
  bcast_S4x8_S4x1x8_0_2 : S4x8.BroadcastsInDim S4x1x8 (![0, 2] : Fin 2 → Fin S4x1x8.rank)
  bcast_S4x1x8_S4x16x8_0_1_2 : S4x1x8.BroadcastsInDim S4x16x8 (![0, 1, 2] : Fin 3 → Fin S4x16x8.rank)
  bcast_S4x16x8_S4x16x1x8_0_1_3 : S4x16x8.BroadcastsInDim S4x16x1x8 (![0, 1, 3] : Fin 3 → Fin S4x16x1x8.rank)
  bcast_S4x16x262144_S4x16x262144x1_0_1_2 : S4x16x262144.BroadcastsInDim S4x16x262144x1 (![0, 1, 2] : Fin 3 → Fin S4x16x262144x1.rank)
  bcast_S4x16x1x8_S4x16x262144x8_0_1_2_3 : S4x16x1x8.BroadcastsInDim S4x16x262144x8 (![0, 1, 2, 3] : Fin 4 → Fin S4x16x262144x8.rank)
  bcast_S4x16x262144x1_S4x16x262144x8_0_1_2_3 : S4x16x262144x1.BroadcastsInDim S4x16x262144x8 (![0, 1, 2, 3] : Fin 4 → Fin S4x16x262144x8.rank)
  bcast_S4x262144x8_S4x1x262144x8_0_2_3 : S4x262144x8.BroadcastsInDim S4x1x262144x8 (![0, 2, 3] : Fin 3 → Fin S4x1x262144x8.rank)
  bcast_S4x1x262144x8_S4x16x262144x8_0_1_2_3 : S4x1x262144x8.BroadcastsInDim S4x16x262144x8 (![0, 1, 2, 3] : Fin 4 → Fin S4x16x262144x8.rank)
  reducesTo_S4x16x262144x8_S4x262144x8_d1 : S4x16x262144x8.ReducesTo [1] S4x262144x8
  bcast_S_S4x262144x8 : S_.BroadcastsInDim S4x262144x8 (![] : Fin 0 → Fin S4x262144x8.rank)
  reducesTo_S4x262144x8_S4_d1_2 : S4x262144x8.ReducesTo [1, 2] S4
  bcast_S_S4x8 : S_.BroadcastsInDim S4x8 (![] : Fin 0 → Fin S4x8.rank)
  reducesTo_S4x8_S4_d1 : S4x8.ReducesTo [1] S4
  bcast_S_S4 : S_.BroadcastsInDim S4 (![] : Fin 0 → Fin S4.rank)
  reducesTo_S4_S_d0 : S4.ReducesTo [0] S_
  dot_S4x16x262144_S4x262144x8_S4x16x8_2_1_1_2_0_0_wf : DotDims.WF S4x16x262144 S4x262144x8 S4x16x8 [2] [1] [1] [2] [0] [0]

variable [Facts₀]

def dot_S4x16x262144_S4x262144x8_S4x16x8_2_1_1_2_0_0 : DotDims S4x16x262144 S4x262144x8 S4x16x8 where
  lhsContracting := [2]
  rhsContracting := [1]
  lhsNonContracting := [1]
  rhsNonContracting := [2]
  lhsBatch := [0]
  rhsBatch := [0]
  wf := dot_S4x16x262144_S4x262144x8_S4x16x8_2_1_1_2_0_0_wf

class Facts : Prop extends Facts₀ where

variable [Facts]
-- ==== Proof.Spec.lean ====
/-
  The mathematics both programs compute, stated once over plain coordinates.

  Inputs: an embedding `X b f n` (batch `b` of 4, feature `f` of 16, pixel `n` of 262144 = 512·512) and an integer
  label `L b n` per pixel; eight classes `k`.  With `ind l k` the indicator "label `l` is class `k`":
  the per-class pixel count `cnt b k = Σₙ ind (L b n) k`, the per-class sum `sums b f k = Σₙ X b f n · ind (L b n) k`,
  the class mean `mean = sums / cnt`, and the hinge `hinge s = clip(√s − ½, 0, 10⁵)²` (the square root guarded at
  `s ≤ 0`).  The kernel selects each pixel's own mean by the indicator (`selMean`) and sums one hinge per pixel; the
  reference masks the difference to every class mean by the indicator and sums one hinge per (pixel, class).  When every
  label is one of the eight classes the indicator of a pixel is one at exactly one class, the reference's other
  seven hinges are `hinge 0 = 0`, and the two totals agree (proved in `Algebra.lean`).
-/
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section

namespace Cert.Spec

open Idealize.ShloMosaic Idealize.ShloMosaic.ValueIdx

/-- The indicator of "label `l` is class `k`", as an extended real. -/
def ind (l : BitVec 32) (k : Fin 8) : EReal := if l = BitVec.ofNat 32 k.val then 1 else 0

/-- `clip(d − ½, 0, 10⁵)²` with `d = √s` where `s > 0` and `d = 0` elsewhere, spelled with the comparisons, selections and
    literals both programs print (zero, one, one half, 10⁵ as their f32 words). -/
def hinge (s : EReal) : EReal :=
  let z : EReal := Ideal.ofBits .f32 0x00000000#32
  let d : EReal := Scalar.select (Ideal.cmp .ogt s z)
    (Ideal.sqrt (Scalar.select (Ideal.cmp .ogt s z) s (Ideal.ofBits .f32 0x3F800000#32))) z
  let e : EReal := min (Ideal.ofBits .f32 0x47C35000#32) (max z (d - Ideal.ofBits .f32 0x3F000000#32))
  e * e

section Formulas

variable (X : Fin 4 → Fin 16 → Fin 262144 → EReal) (L : Fin 4 → Fin 262144 → BitVec 32)

/-- Pixels of batch `b` in class `k`. -/
def cnt (b : Fin 4) (k : Fin 8) : EReal := ∑ n : Fin 262144, ind (L b n) k
/-- Sum of feature `f` over the pixels of batch `b` in class `k`. -/
def sums (b : Fin 4) (f : Fin 16) (k : Fin 8) : EReal := ∑ n : Fin 262144, X b f n * ind (L b n) k
/-- The class mean (the quotient as both programs compute it, whatever the count). -/
def mean (b : Fin 4) (f : Fin 16) (k : Fin 8) : EReal := Ideal.div (sums X L b f k) (cnt L b k)
/-- `Σₖ 1 / cnt b k`. -/
def rcpSum (b : Fin 4) : EReal := ∑ k : Fin 8, Ideal.div (Ideal.ofBits .f32 0x3F800000#32) (cnt L b k)

/-- THE KERNEL: the mean of the pixel's own class, selected by the indicator. -/
def selMean (b : Fin 4) (f : Fin 16) (n : Fin 262144) : EReal := ∑ k : Fin 8, mean X L b f k * ind (L b n) k
def pixK (b : Fin 4) (n : Fin 262144) : EReal :=
  hinge (∑ f : Fin 16, (selMean X L b f n - X b f n) * (selMean X L b f n - X b f n))
def distK (b : Fin 4) : EReal := ∑ n : Fin 262144, pixK X L b n
def kernelVal : EReal :=
  Ideal.ofBits .f32 0x3F800000#32
    * ∑ b : Fin 4, distK X L b * Ideal.div (rcpSum L b) (Ideal.ofBits .f32 0x41000000#32)

/-- THE REFERENCE: the masked difference to every class mean. -/
def pixR (b : Fin 4) (n : Fin 262144) (k : Fin 8) : EReal :=
  hinge (∑ f : Fin 16, ((mean X L b f k - X b f n) * ind (L b n) k) * ((mean X L b f k - X b f n) * ind (L b n) k))
def distR (b : Fin 4) : EReal := ∑ n : Fin 262144, ∑ k : Fin 8, pixR X L b n k
def refVal : EReal :=
  Ideal.ofBits .f32 0x3F800000#32
    * ∑ b : Fin 4, Ideal.div (distR X L b * rcpSum L b) (Ideal.ofBits .f32 0x41000000#32)

end Formulas

/-! ## The arguments as coordinates: pixel `n` of the flattened image is row `n / 512`, column `n % 512` -/

def Xof (A : (⟨4, ![4, 16, 512, 512]⟩ : Shape).Idx → EReal) : Fin 4 → Fin 16 → Fin 262144 → EReal :=
  fun b f n => A (ix4 b f ⟨n.val / 512, by have := n.isLt; omega⟩ ⟨n.val % 512, by omega⟩)
def Lof (T : (⟨3, ![4, 512, 512]⟩ : Shape).Idx → BitVec 32) : Fin 4 → Fin 262144 → BitVec 32 :=
  fun b n => T (ix3 b ⟨n.val / 512, by have := n.isLt; omega⟩ ⟨n.val % 512, by omega⟩)

/-! ## What the two pallas_calls leave, as whole arrays of the arrays they read -/

/-- The first call's output [4, 17, 8]: rows 0…15 the per-class sums of the 16 features, row 16 the per-class counts. -/
def sums17 (A : (⟨3, ![4, 16, 262144]⟩ : Shape).Idx → EReal) (T : (⟨3, ![4, 1, 262144]⟩ : Shape).Idx → BitVec 32) :
    (⟨3, ![4, 17, 8]⟩ : Shape).Idx → EReal :=
  fun i => if h : (i 1).val < 16
    then sums (fun b f n => A (ix3 b f n)) (fun b n => T (ix3 b 0 n)) (i 0) ⟨(i 1).val, h⟩ (i 2)
    else cnt (fun b n => T (ix3 b 0 n)) (i 0) (i 2)

/-- The second call's output [4, 1, 1]: per batch the sum over the pixels of the hinge of the squared distance to the mean
    the indicator selects from the means array `M` [4, 16, 8]. -/
def dist1 (A : (⟨3, ![4, 16, 262144]⟩ : Shape).Idx → EReal) (T : (⟨3, ![4, 1, 262144]⟩ : Shape).Idx → BitVec 32)
    (M : (⟨3, ![4, 16, 8]⟩ : Shape).Idx → EReal) : (⟨3, ![4, 1, 1]⟩ : Shape).Idx → EReal :=
  fun i => ∑ n : Fin 262144, hinge (∑ f : Fin 16,
    ((∑ k : Fin 8, M (ix3 (i 0) f k) * ind (T (ix3 (i 0) 0 n)) k) - A (ix3 (i 0) f n))
      * ((∑ k : Fin 8, M (ix3 (i 0) f k) * ind (T (ix3 (i 0) 0 n)) k) - A (ix3 (i 0) f n)))

/-! ## A sum over the 262144 pixels as four tiles of 65536 -/

/-- A sum over `Fin (m * n)` as `m` runs of `n`. -/
theorem sum_fin_mul {M : Type*} [AddCommMonoid M] (m n : ℕ) (g : Fin (m * n) → M) :
    ∑ x : Fin (m * n), g x = ∑ s : Fin m, ∑ j : Fin n, g (finProdFinEquiv (s, j)) := by
  rw [← Fintype.sum_prod_type']
  exact (Fintype.sum_equiv finProdFinEquiv (fun p : Fin m × Fin n => g (finProdFinEquiv (p.1, p.2))) g (fun _ => rfl)).symm

theorem sum_tiles {M : Type*} [AddCommMonoid M] (g : Fin 262144 → M) :
    ∑ n : Fin 262144, g n
      = ∑ s : Fin 4, ∑ j : Fin 65536, g ⟨65536 * s.val + j.val, by have := s.isLt; have := j.isLt; omega⟩ := by
  have e : 4 * 65536 = 262144 := by norm_num
  rw [← Fintype.sum_equiv (finCongr e) (fun x => g (Fin.cast e x)) g (fun _ => rfl), sum_fin_mul 4 65536]
  refine Finset.sum_congr rfl fun s _ => Finset.sum_congr rfl fun j _ => congrArg g (Fin.ext ?_)
  show (finProdFinEquiv (s, j)).val = 65536 * s.val + j.val
  rw [finProdFinEquiv_apply_val]; dsimp only; omega

end Cert.Spec

end
-- ==== Proof.HostDefs.lean ====
/-
  The host side of the kernel program, as functions of the arrays the two pallas_calls write: the reshapes of the two
  arguments that both calls read, the class counts cut out of the first call's output (its row 16), the class means
  (rows 0…15 over the counts), the factor `(Σₖ 1 / cnt) / 8`, and the tail after the second call
  (`1 · Σ_b dist_b · factor_b`); and `kernelTerm`, the program's result as ONE term of its two arguments.
-/
import proofs.«425639_j46677704573718_2_alg».proof.Proof.Gen.KernelIdeal
import proofs.«425639_j46677704573718_2_alg».proof.Proof.Spec

noncomputable section

namespace Cert.KernelIdeal.HostV

open Idealize.ShloMosaic Cert.KernelIdeal Cert.KernelIdeal.Facts₀

/-- The embedding flattened to [4, 16, 262144]. -/
def hostX (A : FVec Ideal S4x16x512x512 .f32) : FVec Ideal S4x16x262144 .f32 :=
  shapeCast _ A shapeCasts_S4x16x512x512_S4x16x262144
/-- The labels flattened to [4, 1, 262144]. -/
def hostL (T : IVec S4x512x512 32) : IVec S4x1x262144 32 :=
  shapeCast _ T shapeCasts_S4x512x512_S4x1x262144
/-- The class counts [4, 8]: row 16 of the first call's output. -/
def hostCnt (S : FVec Ideal S4x17x8 .f32) : FVec Ideal S4x8 .f32 :=
  shapeCast _ (extractStridedSlice S4x1x8 ![0, 16, 0] S slices_S4x17x8_S4x1x8_0_16_0) shapeCasts_S4x1x8_S4x8
/-- The class means [4, 16, 8]: rows 0…15 of the first call's output over the counts. -/
def hostMeans (S : FVec Ideal S4x17x8 .f32) : FVec Ideal S4x16x8 .f32 :=
  Host.divf (extractStridedSlice S4x16x8 ![0, 0, 0] S slices_S4x17x8_S4x16x8_0_0_0)
    (broadcastInDim S4x16x8 ![0, 1, 2] bcast_S4x1x8_S4x16x8_0_1_2 (broadcastInDim S4x1x8 ![0, 2] bcast_S4x8_S4x1x8_0_2 (hostCnt S)))
/-- The factor [4]: `(Σₖ 1 / cnt_k) / 8`. -/
def hostFac (S : FVec Ideal S4x17x8 .f32) : FVec Ideal S4 .f32 :=
  Host.divf
    (Host.reduceAdd (Host.divf (broadcastInDim S4x8 ![] bcast_S_S4x8 (constant (F := Ideal) S_ .f32 0x3F800000#32)) (hostCnt S))
      (constant (F := Ideal) S_ .f32 0x00000000#32) reducesTo_S4x8_S4_d1 h_S_)
    (broadcastInDim S4 ![] bcast_S_S4 (constant (F := Ideal) S_ .f32 0x41000000#32))
/-- The tail: `1 · Σ_b D_b · Fc_b`. -/
def hostTail (D : FVec Ideal S4x1x1 .f32) (Fc : FVec Ideal S4 .f32) : FVec Ideal S_ .f32 :=
  mulf (constant (F := Ideal) S_ .f32 0x3F800000#32)
    (Host.reduceAdd (mulf (shapeCast _ D shapeCasts_S4x1x1_S4) Fc) (constant (F := Ideal) S_ .f32 0x00000000#32) reducesTo_S4_S_d0 h_S_)

/-- The kernel program's result, as one term of its two argument arrays. -/
def kernelTerm (A : FVec Ideal S4x16x512x512 .f32) (T : IVec S4x512x512 32) : FVec Ideal S_ .f32 :=
  hostTail (Cert.Spec.dist1 (hostX A) (hostL T) (hostMeans (Cert.Spec.sums17 (hostX A) (hostL T))))
    (hostFac (Cert.Spec.sums17 (hostX A) (hostL T)))

end Cert.KernelIdeal.HostV

end
-- ==== Proof.PreRange.lean ====
/-
  The printed precondition, read back at the labels: it is the conjunction of "every |x| is below +inf" with the
  jnp.all over the label array of (0 ≤ label, signed) and (label < 8, signed). From its being all ones, every label
  word is, as a signed 32-bit word, in [0, 8), hence as an unsigned word below 8: it is the word of one of the
  eight classes.
-/
import proofs.«425639_j46677704573718_2_alg».proof.Defs
import Idealize.ShloMosaic.Lib.ReduceAll
import Idealize.ShloMosaic.Lib.StableHlo.Predicate
import Idealize.ShloMosaic.Lib.ValueIdx

noncomputable section

namespace Cert.PreRange

open Idealize.ShloMosaic Idealize.SL.Sem

/-- The rank-0 shape has one index. -/
instance : Subsingleton Cert.Pre_finite_inputs.S_.Idx := ⟨fun a b => funext fun d => d.elim0⟩

/-- A 32-bit word that is, read signed, at least 0 and below 8 is, read unsigned, below 8. -/
theorem toNat_lt_eight (w : BitVec 32) (h0 : (0#32 : BitVec 32).toInt ≤ w.toInt) (h8 : w.toInt < (8#32 : BitVec 32).toInt) :
    w.toNat < 8 := by
  have e0 : (0#32 : BitVec 32).toInt = 0 := by decide
  have e8 : (8#32 : BitVec 32).toInt = 8 := by decide
  rw [e0] at h0
  rw [e8] at h8
  have hw := w.isLt
  rw [BitVec.toInt_eq_toNat_cond] at h0 h8
  split at h0 <;> omega

/-- The label conjunct of the precondition at one label word. -/
theorem label_word [hP : Cert.Pre_finite_inputs.Facts] {F : FTy → Type} [FloatOps F]
    (x : FVec F Cert.Pre_finite_inputs.S4x16x512x512 .f32) (l : IVec Cert.Pre_finite_inputs.S4x512x512 32)
    (h : Cert.Pre_finite_inputs.fn (F := F) x l = fun _ => 1#1) (i : Cert.Pre_finite_inputs.S4x512x512.Idx) :
    (l i).toNat < 8 := by
  have h0 := congrFun h ValueIdx.ix0
  dsimp only [Cert.Pre_finite_inputs.fn] at h0
  obtain ⟨-, hl⟩ := IntOp.andi_eq_one.1 h0
  have hi := Host.reduce_andi_all _ _ _ _ _ hl i
  obtain ⟨hge, hlt⟩ := IntOp.andi_eq_one.1 hi
  have hge' : IntOp.cmpi .sge (l i) 0#32 = 1#1 := hge
  have hlt' : IntOp.cmpi .slt (l i) 8#32 = 1#1 := hlt
  exact toNat_lt_eight (l i) (IntOp.cmpi_sge.1 hge') (IntOp.cmpi_slt.1 hlt')

theorem labels [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : (⟨3, ![4, 512, 512]⟩ : Shape).Idx) :
    ∃ k : Fin 8, m ((c.tc : Thread Cert.KernelIdeal.nD Cert.KernelIdeal.τ).loc Cert.KernelIdeal.main_arg1) i = BitVec.ofNat 32 k.val := by
  have hw := label_word (F := Ideal) _ _ (h c) i
  refine ⟨⟨_, hw⟩, BitVec.eq_of_toNat_eq ?_⟩
  rw [BitVec.toNat_ofNat]
  exact (Nat.mod_eq_of_lt (lt_trans hw (by decide))).symm

end Cert.PreRange

end
-- ==== Proof.Region0.lean ====
/-
  The first kernel call's output array, as a function of the two arrays it reads.

  The call walks a grid of 16 points; point t = 4·b + s is batch row b, tile s of 65536 pixels. At every point the body
  forms the one-hot mask  ind (label of pixel j) k  (8 classes × 65536 pixels) and multiplies it, contracting over the
  pixels, with the tile's 16 feature rows and with a row of ones: a [16, 8] block of per-class feature sums and a
  [1, 8] row of per-class pixel counts. At the first tile of a batch row (s = 0) the [1, 17, 8] output block is reset to
  zero first; at every tile the two products are added into rows 0…15 and row 16 of the block; the block is written back
  to batch row b of the [4, 17, 8] array after the last tile (s = 3).

  So the array ends holding, at (b, r, k):  Σₙ X b r n · ind (L b n) k  for r < 16 and  Σₙ ind (L b n) k  for r = 16, the sums
  over all 262144 pixels n of the batch row — `Cert.Spec.sums17`. The proof reads: each case's stores at an index
  (§ 1–3); the block after each point as a fold over the tiles of its batch row (§ 4); the blocks as parts of the arrays and
  the four tiles' sums as the whole sum (§ 5); the write-backs covering the array (§ 6).
-/
import proofs.«425639_j46677704573718_2_alg».proof.Proof.Gen.KernelIdeal.Frame
import proofs.«425639_j46677704573718_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.R0

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen

/-! ## 1. The payloads at an index, over the extended reals -/

open Cert.Spec (ind)

/-- The bf16 word of one denotes the extended real one. -/
theorem one_bf16 : (Scalar.ofBits (F := Ideal) .bf16 0x3F80#16 : EReal) = 1 := by
  show Ideal.ofBits .bf16 0x3F80#16 = 1
  simp [Ideal.ofBits, Ideal.ieee, -EReal.coe_mul]; norm_num

/-- The comparison of the class number with a label, widened to a word and converted to a float, is the indicator. -/
theorem ind_word (l : BitVec 32) (k : Fin 8) :
    (Scalar.sitofp (F := Ideal) .f32 ((IntOp.cmpi .eq (BitVec.ofNat 32 k.val) l).setWidth 32) : EReal) = ind l k := by
  unfold Cert.Spec.ind
  rw [Ideal.scalar_sitofp_def]
  by_cases h : l = BitVec.ofNat 32 k.val
  · subst h; rw [if_pos rfl]; simp [IntOp.cmpi]
  · rw [if_neg h]
    have : (BitVec.ofNat 32 k.val == l) = false := by
      rw [beq_eq_false_iff_ne]; exact fun e => h e.symm
    simp [IntOp.cmpi, this]

/-- The labels' row, broadcast over the eight classes, reads at (k, j) the label of pixel j. -/
theorem labels_apply (x1 : Vec Ideal S1x1x65536 .i32) (k : Fin 8) (j : Fin 65536) :
    broadcastTo S8x65536
        (shapeCast S1x65536 (shapeCast S1x65536 x1 shapeCasts_S1x1x65536_S1x65536) shapeCasts_S1x65536_S1x65536)
        broadcasts_S1x65536_S8x65536 (ix2 k j) = x1 (ix3 0 0 j) := by
  refine (broadcastTo_apply _ broadcasts_S1x65536_S8x65536 (ix2 k j) (ix2 0 j) (fun a => ?_)).trans ?_
  · match a with
    | ⟨0, _⟩ => show (0 : Nat) = if (1 : Nat) = 1 then 0 else k.val; rw [if_pos rfl]
    | ⟨1, _⟩ => show j.val = if (65536 : Nat) = 1 then 0 else j.val; rw [if_neg (by decide)]
  · rw [shapeCast_self]
    refine (shapeCast_dropUnit_apply ![1, 65536] x1 _ (ix2 0 j)).trans ?_
    exact congrArg x1 (funext fun a => by match a with | ⟨0, _⟩ => rfl | ⟨1, _⟩ => rfl | ⟨2, _⟩ => rfl)

set_option maxHeartbeats 400000 in
/-- The one-hot mask at class k and pixel j of the tile is the indicator of "pixel j's label is k". -/
theorem mask_apply (x1 : Vec Ideal S1x1x65536 .i32) (k : Fin 8) (j : Fin 65536) :
    k0_pay2 (F := Ideal) x1 (ix2 k j) = ind (x1 (ix3 0 0 j)) k := by
  unfold k0_pay2
  refine Eq.trans ?_ (ind_word (x1 (ix3 0 0 j)) k)
  show Scalar.sitofp (F := Ideal) .f32 ((IntOp.cmpi .eq (iota .tc S8x65536 32 [0] _ (ix2 k j)) (broadcastTo S8x65536 _ _ (ix2 k j))).setWidth 32) = _
  rw [labels_apply, iota_single_apply]

/-! The two contractions' operand indices, axis by axis. -/

theorem lhs16_0 (i : S16x8.Idx) (q : dot_S16x65536_S8x65536_S16x8_1_1_0_0_n_n.contr.Idx) :
    (dot_S16x65536_S8x65536_S16x8_1_1_0_0_n_n.lhsIdx i q 0).val = (i 0).val := by
  unfold DotDims.lhsIdx
  rw [dif_neg (show ¬(0 : Fin S16x65536.rank) ∈ dot_S16x65536_S8x65536_S16x8_1_1_0_0_n_n.lhsBatch by decide), dif_pos (show (0 : Fin S16x65536.rank) ∈ dot_S16x65536_S8x65536_S16x8_1_1_0_0_n_n.lhsNonContracting by decide)]
  rfl
theorem lhs16_1 (i : S16x8.Idx) (q : dot_S16x65536_S8x65536_S16x8_1_1_0_0_n_n.contr.Idx) :
    (dot_S16x65536_S8x65536_S16x8_1_1_0_0_n_n.lhsIdx i q 1).val = (q ⟨0, by decide⟩).val :=
  dot_S16x65536_S8x65536_S16x8_1_1_0_0_n_n.lhsIdx_val_of_single rfl i q
theorem rhs16_0 (i : S16x8.Idx) (q : dot_S16x65536_S8x65536_S16x8_1_1_0_0_n_n.contr.Idx) :
    (dot_S16x65536_S8x65536_S16x8_1_1_0_0_n_n.rhsIdx i q 0).val = (i 1).val := by
  unfold DotDims.rhsIdx
  rw [dif_neg (show ¬(0 : Fin S8x65536.rank) ∈ dot_S16x65536_S8x65536_S16x8_1_1_0_0_n_n.rhsBatch by decide), dif_pos (show (0 : Fin S8x65536.rank) ∈ dot_S16x65536_S8x65536_S16x8_1_1_0_0_n_n.rhsNonContracting by decide)]
  rfl
theorem rhs16_1 (i : S16x8.Idx) (q : dot_S16x65536_S8x65536_S16x8_1_1_0_0_n_n.contr.Idx) :
    (dot_S16x65536_S8x65536_S16x8_1_1_0_0_n_n.rhsIdx i q 1).val = (q ⟨0, by decide⟩).val :=
  dot_S16x65536_S8x65536_S16x8_1_1_0_0_n_n.rhsIdx_val_of_single rfl i q

set_option maxHeartbeats 400000 in
/-- The features' product with the mask into a zero accumulator, at (r, k): the sum over the tile's pixels. -/
theorem matmul16_apply (A : FVec Ideal S16x65536 .bf16) (B : FVec Ideal S8x65536 .bf16) (r : Fin 16) (k : Fin 8) :
    matmul dot_S16x65536_S8x65536_S16x8_1_1_0_0_n_n none A B (constant (F := Ideal) S16x8 .f32 0x00000000#32) (ix2 r k)
      = ∑ j : Fin 65536, A (ix2 r j) * B (ix2 k j) := by
  simp only [matmul]
  rw [Ideal.matmul_constant_zero_apply, ← Equiv.sum_comp (ValueIdx.contrEquiv1 dot_S16x65536_S8x65536_S16x8_1_1_0_0_n_n 65536 rfl rfl).symm]
  refine Finset.sum_congr rfl fun j _ => ?_
  have hk := ValueIdx.contrEquiv1_symm_val dot_S16x65536_S8x65536_S16x8_1_1_0_0_n_n 65536 rfl rfl j
  have el : dot_S16x65536_S8x65536_S16x8_1_1_0_0_n_n.lhsIdx (ix2 r k) ((ValueIdx.contrEquiv1 dot_S16x65536_S8x65536_S16x8_1_1_0_0_n_n 65536 rfl rfl).symm j) = ix2 r j := funext fun a => Fin.ext (by
    match a with
    | ⟨0, _⟩ => exact lhs16_0 _ _
    | ⟨1, _⟩ => exact (lhs16_1 _ _).trans hk)
  have er : dot_S16x65536_S8x65536_S16x8_1_1_0_0_n_n.rhsIdx (ix2 r k) ((ValueIdx.contrEquiv1 dot_S16x65536_S8x65536_S16x8_1_1_0_0_n_n 65536 rfl rfl).symm j) = ix2 k j := funext fun a => Fin.ext (by
    match a with
    | ⟨0, _⟩ => exact rhs16_0 _ _
    | ⟨1, _⟩ => exact (rhs16_1 _ _).trans hk)
  rw [el, er]

theorem lhs1_0 (i : S1x8.Idx) (q : dot_S1x65536_S8x65536_S1x8_1_1_0_0_n_n.contr.Idx) :
    (dot_S1x65536_S8x65536_S1x8_1_1_0_0_n_n.lhsIdx i q 0).val = (i 0).val := by
  unfold DotDims.lhsIdx
  rw [dif_neg (show ¬(0 : Fin S1x65536.rank) ∈ dot_S1x65536_S8x65536_S1x8_1_1_0_0_n_n.lhsBatch by decide), dif_pos (show (0 : Fin S1x65536.rank) ∈ dot_S1x65536_S8x65536_S1x8_1_1_0_0_n_n.lhsNonContracting by decide)]
  rfl
theorem lhs1_1 (i : S1x8.Idx) (q : dot_S1x65536_S8x65536_S1x8_1_1_0_0_n_n.contr.Idx) :
    (dot_S1x65536_S8x65536_S1x8_1_1_0_0_n_n.lhsIdx i q 1).val = (q ⟨0, by decide⟩).val :=
  dot_S1x65536_S8x65536_S1x8_1_1_0_0_n_n.lhsIdx_val_of_single rfl i q
theorem rhs1_0 (i : S1x8.Idx) (q : dot_S1x65536_S8x65536_S1x8_1_1_0_0_n_n.contr.Idx) :
    (dot_S1x65536_S8x65536_S1x8_1_1_0_0_n_n.rhsIdx i q 0).val = (i 1).val := by
  unfold DotDims.rhsIdx
  rw [dif_neg (show ¬(0 : Fin S8x65536.rank) ∈ dot_S1x65536_S8x65536_S1x8_1_1_0_0_n_n.rhsBatch by decide), dif_pos (show (0 : Fin S8x65536.rank) ∈ dot_S1x65536_S8x65536_S1x8_1_1_0_0_n_n.rhsNonContracting by decide)]
  rfl
theorem rhs1_1 (i : S1x8.Idx) (q : dot_S1x65536_S8x65536_S1x8_1_1_0_0_n_n.contr.Idx) :
    (dot_S1x65536_S8x65536_S1x8_1_1_0_0_n_n.rhsIdx i q 1).val = (q ⟨0, by decide⟩).val :=
  dot_S1x65536_S8x65536_S1x8_1_1_0_0_n_n.rhsIdx_val_of_single rfl i q

set_option maxHeartbeats 400000 in
/-- The row of ones' product with the mask into a zero accumulator, at (0, k): the sum over the tile's pixels. -/
theorem matmul1_apply (A : FVec Ideal S1x65536 .bf16) (B : FVec Ideal S8x65536 .bf16) (k : Fin 8) :
    matmul dot_S1x65536_S8x65536_S1x8_1_1_0_0_n_n none A B (constant (F := Ideal) S1x8 .f32 0x00000000#32) (ix2 0 k)
      = ∑ j : Fin 65536, A (ix2 0 j) * B (ix2 k j) := by
  simp only [matmul]
  rw [Ideal.matmul_constant_zero_apply, ← Equiv.sum_comp (ValueIdx.contrEquiv1 dot_S1x65536_S8x65536_S1x8_1_1_0_0_n_n 65536 rfl rfl).symm]
  refine Finset.sum_congr rfl fun j _ => ?_
  have hk := ValueIdx.contrEquiv1_symm_val dot_S1x65536_S8x65536_S1x8_1_1_0_0_n_n 65536 rfl rfl j
  have el : dot_S1x65536_S8x65536_S1x8_1_1_0_0_n_n.lhsIdx (ix2 0 k) ((ValueIdx.contrEquiv1 dot_S1x65536_S8x65536_S1x8_1_1_0_0_n_n 65536 rfl rfl).symm j) = ix2 0 j := funext fun a => Fin.ext (by
    match a with
    | ⟨0, _⟩ => exact lhs1_0 _ _
    | ⟨1, _⟩ => exact (lhs1_1 _ _).trans hk)
  have er : dot_S1x65536_S8x65536_S1x8_1_1_0_0_n_n.rhsIdx (ix2 0 k) ((ValueIdx.contrEquiv1 dot_S1x65536_S8x65536_S1x8_1_1_0_0_n_n 65536 rfl rfl).symm j) = ix2 k j := funext fun a => Fin.ext (by
    match a with
    | ⟨0, _⟩ => exact rhs1_0 _ _
    | ⟨1, _⟩ => exact (rhs1_1 _ _).trans hk)
  rw [el, er]

set_option maxHeartbeats 400000 in
/-- What the rows' store holds at (0, r, k): the loaded accumulator there plus, over the tile's pixels, the feature times
    the indicator. -/
theorem pay3_apply (x0 : Vec Ideal S1x16x65536 .f32) (x1 : Vec Ideal S1x1x65536 .i32) (v18 : Vec Ideal S1x16x8 .f32)
    (r : Fin 16) (k : Fin 8) :
    k0_pay3 (F := Ideal) x0 x1 v18 (ix3 0 r k)
      = v18 (ix3 0 r k) + ∑ j : Fin 65536, x0 (ix3 0 r j) * ind (x1 (ix3 0 0 j)) k := by
  unfold k0_pay3
  refine (shapeCast_addUnit_apply ![16, 8] _ _ (ix3 0 r k)).trans ?_
  have e : (fun a : Fin 2 => (ix3 (0 : Fin 1) r k) a.succ) = ix2 r k :=
    funext fun a => by match a with | ⟨0, _⟩ => rfl | ⟨1, _⟩ => rfl
  rw [e]
  refine (addf_apply _ _ _).trans ?_
  rw [matmul16_apply]
  refine congrArg₂ (· + ·) ?_ (Finset.sum_congr rfl fun j _ => ?_)
  · exact (shapeCast_dropUnit_apply ![16, 8] v18 _ (ix2 r k)).trans
      (congrArg v18 (funext fun a => by match a with | ⟨0, _⟩ => rfl | ⟨1, _⟩ => rfl | ⟨2, _⟩ => rfl))
  · rw [mask_apply]
    refine congrArg (· * _) ?_
    show shapeCast S16x65536 x0 _ (ix2 r j) = _
    exact (shapeCast_dropUnit_apply ![16, 65536] x0 _ (ix2 r j)).trans
      (congrArg x0 (funext fun a => by match a with | ⟨0, _⟩ => rfl | ⟨1, _⟩ => rfl | ⟨2, _⟩ => rfl))

set_option maxHeartbeats 400000 in
/-- What the counts' store holds at (0, 0, k): the loaded accumulator there plus, over the tile's pixels, the indicator. -/
theorem pay4_apply (x1 : Vec Ideal S1x1x65536 .i32) (v24 : Vec Ideal S1x1x8 .f32) (k : Fin 8) :
    k0_pay4 (F := Ideal) x1 v24 (ix3 0 0 k)
      = v24 (ix3 0 0 k) + ∑ j : Fin 65536, ind (x1 (ix3 0 0 j)) k := by
  unfold k0_pay4
  refine (shapeCast_addUnit_apply ![1, 8] _ _ (ix3 0 0 k)).trans ?_
  have e : (fun a : Fin 2 => (ix3 (0 : Fin 1) (0 : Fin 1) k) a.succ) = ix2 0 k :=
    funext fun a => by match a with | ⟨0, _⟩ => rfl | ⟨1, _⟩ => rfl
  rw [e]
  refine (addf_apply _ _ _).trans ?_
  rw [matmul1_apply]
  refine congrArg₂ (· + ·) ?_ (Finset.sum_congr rfl fun j _ => ?_)
  · exact (shapeCast_dropUnit_apply ![1, 8] v24 _ (ix2 0 k)).trans
      (congrArg v24 (funext fun a => by match a with | ⟨0, _⟩ => rfl | ⟨1, _⟩ => rfl | ⟨2, _⟩ => rfl))
  · rw [mask_apply, broadcast_apply, one_bf16, one_mul]

/-! ## 2. A list of unit-stride stores read at an index -/

/-! Under the last store, or off it. -/

section Canon
variable {Val : EltTy → Type} [∀ e, Nonempty (Val e)] {S : Shape} {e : EltTy}

/-- Under the last store (the index is the store's offset plus a coordinate of its payload): the payload there. -/
theorem canon_cons_unit_mem (off sz : Fin S.rank → Nat) (inb : ∀ a, off a + sz a ≤ S.size a)
    (w : (Rect.unit off sz inb).shape.Idx → Val e) (L : List (View.Piece Val S e)) (y : S.Idx)
    (x : (Rect.unit off sz inb).shape.Idx) (h : ∀ a, (y a).val = off a + (x a).val) :
    View.canon ((⟨Rect.unit off sz inb, w⟩ : View.Piece Val S e) :: L) y = w x := by
  have hy : y = (Rect.unit off sz inb).emb x := funext fun a => Fin.ext (by
    rw [Rect.emb_apply, h a]; show _ = off a + 1 * (x a).val; omega)
  rw [hy]
  exact View.canon_cons_emb _ w L x

/-- Off the last store on some axis: what the earlier stores left. -/
theorem canon_cons_unit_not_mem (off sz : Fin S.rank → Nat) (inb : ∀ a, off a + sz a ≤ S.size a)
    (w : (Rect.unit off sz inb).shape.Idx → Val e) (L : List (View.Piece Val S e)) (y : S.Idx)
    (a : Fin S.rank) (h : (y a).val < off a ∨ off a + sz a ≤ (y a).val) :
    View.canon ((⟨Rect.unit off sz inb, w⟩ : View.Piece Val S e) :: L) y = View.canon L y :=
  View.canon_cons_of_not_mem _ L (fun hm => by
    have hm' : y ∈ (Rect.unit off sz inb).set := hm
    have := (Rect.mem_set_unit.mp hm') a
    omega)

end Canon

/-! ## 3. What each case of the body leaves in the block, index by index -/

theorem hz3 : (![0, 0, 0] : Fin 3 → Nat) = fun _ => 0 := funext fun a => by fin_cases a <;> rfl

/-- The reset block is zero everywhere. -/
theorem pay1_apply (y : S1x17x8.Idx) : k0_pay1 (F := Ideal) y = 0 := by
  unfold k0_pay1
  show Ideal.ofBits .f32 0x00000000#32 = 0
  exact Ideal.ofBits_zero_f32

/-- What the reset store alone leaves reads zero at every index. -/
theorem canon_reset (y : S1x17x8.Idx) :
    View.canon [(⟨Rect.unit ![0, 0, 0] S1x17x8.size inb_S1x17x8_S1x17x8_0_0_0, k0_pay1 (F := Ideal)⟩ : View.Piece (Elt Ideal) S1x17x8 .f32)] y = 0 := by
  rw [View.canon_unit_zero hz3]; exact pay1_apply y

set_option maxHeartbeats 800000 in
/-- Case A (the first tile of a batch row), feature rows: the reset zero, then this tile's sum. -/
theorem outA_rows (c : Dev nD) (i : grid0.Coords) (a2 : Memref sig .tc .vmem S1x16x65536 .f32) (h2 : a2.IsWhole)
    (a3 : Memref sig .tc .vmem S1x1x65536 .i32) (h3 : a3.IsWhole) (a4 : Memref sig .tc .vmem S1x17x8 .f32) (h4 : a4.IsWhole)
    (hc : cond0_0 i) (x0 : Vec Ideal S1x16x65536 .f32) (x1 : Vec Ideal S1x1x65536 .i32)
    (r : Fin 16) (k : Fin 8) :
    out0_A_2 (F := Ideal) c i a2 h2 a3 h3 a4 h4 hc x0 x1 (ix3 0 r.castSucc k)
      = ∑ j : Fin 65536, x0 (ix3 0 r j) * ind (x1 (ix3 0 0 j)) k := by
  unfold out0_A_2
  rw [View.read_writes_eq_canon _ _ _ (cover0_A_2 c i a2 h2 a3 h3 a4 h4 hc x0 x1)]
  unfold kernelRun0_A
  dsimp only
  sl_unfold_words
  refine (canon_cons_unit_not_mem _ _ _ _ _ (ix3 0 r.castSucc k) 1 (Or.inl ?_)).trans ?_
  · show r.val < 16; exact r.isLt
  refine (canon_cons_unit_mem _ _ _ _ _ (ix3 0 r.castSucc k) (ix3 0 r k) (fun a => ?_)).trans ?_
  · match a with
    | ⟨0, _⟩ => rfl
    | ⟨1, _⟩ => show r.val = 0 + r.val; omega
    | ⟨2, _⟩ => show k.val = 0 + k.val; omega
  rw [pay3_apply]
  simp only [View.readAt_eq_ld, h2.read_unread, h3.read_unread]
  rw [View.ld_unit_zero (S := S1x16x65536) hz3 inb_S1x16x65536_S1x16x65536_0_0_0 x0,
    View.ld_unit_zero (S := S1x1x65536) hz3 inb_S1x1x65536_S1x1x65536_0_0_0 x1]
  rw [View.readCov_eq_canon']
  dsimp only
  rw [canon_reset, zero_add]

set_option maxHeartbeats 800000 in
/-- Case A, the counts' row: the reset zero, then this tile's count. -/
theorem outA_cnt (c : Dev nD) (i : grid0.Coords) (a2 : Memref sig .tc .vmem S1x16x65536 .f32) (h2 : a2.IsWhole)
    (a3 : Memref sig .tc .vmem S1x1x65536 .i32) (h3 : a3.IsWhole) (a4 : Memref sig .tc .vmem S1x17x8 .f32) (h4 : a4.IsWhole)
    (hc : cond0_0 i) (x0 : Vec Ideal S1x16x65536 .f32) (x1 : Vec Ideal S1x1x65536 .i32)
    (k : Fin 8) :
    out0_A_2 (F := Ideal) c i a2 h2 a3 h3 a4 h4 hc x0 x1 (ix3 0 (Fin.last 16) k)
      = ∑ j : Fin 65536, ind (x1 (ix3 0 0 j)) k := by
  unfold out0_A_2
  rw [View.read_writes_eq_canon _ _ _ (cover0_A_2 c i a2 h2 a3 h3 a4 h4 hc x0 x1)]
  unfold kernelRun0_A
  dsimp only
  sl_unfold_words
  refine (canon_cons_unit_mem _ _ _ _ _ (ix3 0 (Fin.last 16) k) (ix3 0 0 k) (fun a => ?_)).trans ?_
  · match a with
    | ⟨0, _⟩ => rfl
    | ⟨1, _⟩ => rfl
    | ⟨2, _⟩ => show k.val = 0 + k.val; omega
  rw [pay4_apply]
  simp only [View.readAt_eq_ld, h3.read_unread]
  rw [View.ld_unit_zero (S := S1x1x65536) hz3 inb_S1x1x65536_S1x1x65536_0_0_0 x1]
  rw [View.readCov_eq_canon']
  dsimp only
  refine congrArg (· + _) ?_ |>.trans (zero_add _)
  refine (canon_cons_unit_not_mem _ _ _ _ _ _ 1 (Or.inr ?_)).trans (canon_reset _)
  show 0 + 16 ≤ 16 + 1 * 0
  omega

set_option maxHeartbeats 800000 in
/-- Case B (a later tile of a batch row), feature rows: over what the tile before left, plus this tile's sum. -/
theorem outB_rows (c : Dev nD) (i : grid0.Coords) (a2 : Memref sig .tc .vmem S1x16x65536 .f32) (h2 : a2.IsWhole)
    (a3 : Memref sig .tc .vmem S1x1x65536 .i32) (h3 : a3.IsWhole) (a4 : Memref sig .tc .vmem S1x17x8 .f32) (h4 : a4.IsWhole)
    (hc : ¬cond0_0 i) (x0 : Vec Ideal S1x16x65536 .f32) (x1 : Vec Ideal S1x1x65536 .i32) (xo : Vec Ideal S1x17x8 .f32)
    (r : Fin 16) (k : Fin 8) :
    out0_B_2 (F := Ideal) c i a2 h2 a3 h3 a4 h4 hc x0 x1 xo (ix3 0 r.castSucc k)
      = xo (ix3 0 r.castSucc k) + ∑ j : Fin 65536, x0 (ix3 0 r j) * ind (x1 (ix3 0 0 j)) k := by
  unfold out0_B_2
  rw [View.read_writes_eq_canon _ _ _ (cover0_B_2 c i a2 h2 a3 h3 a4 h4 hc x0 x1 xo)]
  unfold kernelRun0_B
  dsimp only
  sl_unfold_words
  refine (canon_cons_unit_not_mem _ _ _ _ _ (ix3 0 r.castSucc k) 1 (Or.inl ?_)).trans ?_
  · show r.val < 16; exact r.isLt
  refine (canon_cons_unit_mem _ _ _ _ _ (ix3 0 r.castSucc k) (ix3 0 r k) (fun a => ?_)).trans ?_
  · match a with
    | ⟨0, _⟩ => rfl
    | ⟨1, _⟩ => show r.val = 0 + r.val; omega
    | ⟨2, _⟩ => show k.val = 0 + k.val; omega
  rw [pay3_apply]
  simp only [View.readAt_eq_ld, h2.read_unread, h3.read_unread, h4.read_unread]
  rw [View.ld_unit_zero (S := S1x16x65536) hz3 inb_S1x16x65536_S1x16x65536_0_0_0 x0,
    View.ld_unit_zero (S := S1x1x65536) hz3 inb_S1x1x65536_S1x1x65536_0_0_0 x1]
  refine congrArg (· + _) (congrArg xo (funext fun a => Fin.ext ?_))
  match a with
  | ⟨0, _⟩ => rfl
  | ⟨1, _⟩ => show 0 + 1 * r.val = r.val; omega
  | ⟨2, _⟩ => show 0 + 1 * k.val = k.val; omega

set_option maxHeartbeats 800000 in
/-- Case B, the counts' row: over what the tile before left, plus this tile's count. -/
theorem outB_cnt (c : Dev nD) (i : grid0.Coords) (a2 : Memref sig .tc .vmem S1x16x65536 .f32) (h2 : a2.IsWhole)
    (a3 : Memref sig .tc .vmem S1x1x65536 .i32) (h3 : a3.IsWhole) (a4 : Memref sig .tc .vmem S1x17x8 .f32) (h4 : a4.IsWhole)
    (hc : ¬cond0_0 i) (x0 : Vec Ideal S1x16x65536 .f32) (x1 : Vec Ideal S1x1x65536 .i32) (xo : Vec Ideal S1x17x8 .f32)
    (k : Fin 8) :
    out0_B_2 (F := Ideal) c i a2 h2 a3 h3 a4 h4 hc x0 x1 xo (ix3 0 (Fin.last 16) k)
      = xo (ix3 0 (Fin.last 16) k) + ∑ j : Fin 65536, ind (x1 (ix3 0 0 j)) k := by
  unfold out0_B_2
  rw [View.read_writes_eq_canon _ _ _ (cover0_B_2 c i a2 h2 a3 h3 a4 h4 hc x0 x1 xo)]
  unfold kernelRun0_B
  dsimp only
  sl_unfold_words
  refine (canon_cons_unit_mem _ _ _ _ _ (ix3 0 (Fin.last 16) k) (ix3 0 0 k) (fun a => ?_)).trans ?_
  · match a with
    | ⟨0, _⟩ => rfl
    | ⟨1, _⟩ => rfl
    | ⟨2, _⟩ => show k.val = 0 + k.val; omega
  rw [pay4_apply]
  simp only [View.readAt_eq_ld, h3.read_unread, h4.read_unread]
  rw [View.ld_unit_zero (S := S1x1x65536) hz3 inb_S1x1x65536_S1x1x65536_0_0_0 x1]
  refine congrArg (· + _) (congrArg xo (funext fun a => Fin.ext ?_))
  match a with
  | ⟨0, _⟩ => rfl
  | ⟨1, _⟩ => rfl
  | ⟨2, _⟩ => show 0 + 1 * k.val = k.val; omega

/-! ### One tile's contribution, at every index of the block -/

/-- What one tile adds at index (0, r, k) of the block: for a feature row r < 16 the sum over the tile's pixels of the
    feature times the indicator of class k, for the last row the count of the tile's pixels of class k. -/
def tileAdd (x0 : Vec Ideal S1x16x65536 .f32) (x1 : Vec Ideal S1x1x65536 .i32) (i : S1x17x8.Idx) : EReal :=
  if hr : (i 1).val < 16 then ∑ j : Fin 65536, x0 (ix3 0 ⟨(i 1).val, hr⟩ j) * ind (x1 (ix3 0 0 j)) (i 2)
  else ∑ j : Fin 65536, ind (x1 (ix3 0 0 j)) (i 2)

/-- An index of the block is (0, a feature row, k) or (0, the last row, k). -/
theorem idx_cases (i : S1x17x8.Idx) :
    (∃ (r : Fin 16) (k : Fin 8), i = ix3 0 r.castSucc k ∧ (i 1).val = r.val ∧ i 2 = k)
      ∨ (∃ k : Fin 8, i = ix3 0 (Fin.last 16) k ∧ (i 1).val = 16 ∧ i 2 = k) := by
  have h0 : i 0 = (0 : Fin 1) := Fin.ext (by show (i 0).val = 0; have h : (i 0).val < 1 := (i 0).isLt; omega)
  have h1 : (i 1).val < 17 := (i 1).isLt
  by_cases hr : (i 1).val < 16
  · refine Or.inl ⟨⟨(i 1).val, hr⟩, i 2, ?_, rfl, rfl⟩
    refine (eq_ix3 i).trans ?_
    rw [h0]
    exact congrArg (fun q => ix3 (0 : Fin 1) q (i 2)) (Fin.ext rfl)
  · refine Or.inr ⟨i 2, ?_, by omega, rfl⟩
    refine (eq_ix3 i).trans ?_
    rw [h0]
    exact congrArg (fun q => ix3 (0 : Fin 1) q (i 2)) (Fin.ext (by show (i 1).val = 16; omega))

theorem tileAdd_rows (x0 : Vec Ideal S1x16x65536 .f32) (x1 : Vec Ideal S1x1x65536 .i32) (r : Fin 16) (k : Fin 8) :
    tileAdd x0 x1 (ix3 0 r.castSucc k) = ∑ j : Fin 65536, x0 (ix3 0 r j) * ind (x1 (ix3 0 0 j)) k := by
  unfold tileAdd
  rw [dif_pos (show ((ix3 (0 : Fin 1) r.castSucc k : S1x17x8.Idx) 1).val < 16 from r.isLt)]
  rfl

theorem tileAdd_cnt (x0 : Vec Ideal S1x16x65536 .f32) (x1 : Vec Ideal S1x1x65536 .i32) (k : Fin 8) :
    tileAdd x0 x1 (ix3 0 (Fin.last 16) k) = ∑ j : Fin 65536, ind (x1 (ix3 0 0 j)) k := by
  unfold tileAdd
  rw [dif_neg (show ¬((ix3 (0 : Fin 1) (Fin.last 16) k : S1x17x8.Idx) 1).val < 16 from by show ¬(16 < 16); omega)]

/-- Case A leaves the tile's contribution. -/
theorem outA_eq (c : Dev nD) (i : grid0.Coords) (a2 : Memref sig .tc .vmem S1x16x65536 .f32) (h2 : a2.IsWhole)
    (a3 : Memref sig .tc .vmem S1x1x65536 .i32) (h3 : a3.IsWhole) (a4 : Memref sig .tc .vmem S1x17x8 .f32) (h4 : a4.IsWhole)
    (hc : cond0_0 i) (x0 : Vec Ideal S1x16x65536 .f32) (x1 : Vec Ideal S1x1x65536 .i32) (y : S1x17x8.Idx) :
    out0_A_2 (F := Ideal) c i a2 h2 a3 h3 a4 h4 hc x0 x1 y = tileAdd x0 x1 y := by
  rcases idx_cases y with ⟨r, k, rfl, -, -⟩ | ⟨k, rfl, -, -⟩
  · rw [outA_rows, tileAdd_rows]
  · rw [outA_cnt, tileAdd_cnt]

/-- Case B adds the tile's contribution to what the tile before left. -/
theorem outB_eq (c : Dev nD) (i : grid0.Coords) (a2 : Memref sig .tc .vmem S1x16x65536 .f32) (h2 : a2.IsWhole)
    (a3 : Memref sig .tc .vmem S1x1x65536 .i32) (h3 : a3.IsWhole) (a4 : Memref sig .tc .vmem S1x17x8 .f32) (h4 : a4.IsWhole)
    (hc : ¬cond0_0 i) (x0 : Vec Ideal S1x16x65536 .f32) (x1 : Vec Ideal S1x1x65536 .i32) (xo : Vec Ideal S1x17x8 .f32)
    (y : S1x17x8.Idx) :
    out0_B_2 (F := Ideal) c i a2 h2 a3 h3 a4 h4 hc x0 x1 xo y = xo y + tileAdd x0 x1 y := by
  rcases idx_cases y with ⟨r, k, rfl, -, -⟩ | ⟨k, rfl, -, -⟩
  · rw [outB_rows, tileAdd_rows]
  · rw [outB_cnt, tileAdd_cnt]

/-! ## 4. Over the grid: the four tiles of a batch row accumulate -/

section Region

variable (V : (c : Dev nD) → (b : Ref sig .tc) → Buf (Elt Ideal) ((c : Thread nD τ).loc b))

/-- The features' block and the labels' block at point t, and the two arrays, named by their literal types. -/
abbrev xblk (c : Dev nD) (t : Fin cfg0.N) : Vec Ideal S1x16x65536 .f32 := iblk0 V c 0 t
abbrev lblk (c : Dev nD) (t : Fin cfg0.N) : Vec Ideal S1x1x65536 .i32 := iblk0 V c 1 t
abbrev xarr (c : Dev nD) : Vec Ideal S4x16x262144 .f32 := V c main_v0
abbrev larr (c : Dev nD) : Vec Ideal S4x1x262144 .i32 := V c main_v1

/-- What point n adds to the block (zero past the grid). -/
def addend (c : Dev nD) (n : Nat) (y : S1x17x8.Idx) : EReal :=
  if h : n < cfg0.N then tileAdd (xblk V c ⟨n, h⟩) (lblk V c ⟨n, h⟩) y else 0

/-- At the first tile of a batch row the block holds that tile's contribution. -/
theorem outsAt_reset (c : Dev nD) (n : Nat) (h : n < cfg0.N) (h0 : n % 4 = 0) :
    outsAt0 V c n h = tileAdd (xblk V c ⟨n, h⟩) (lblk V c ⟨n, h⟩) := by
  funext y
  refine (congrFun (outsAt0_A V c ⟨n, h⟩ h0) y).trans ?_
  exact outA_eq c (grid0.coords ⟨n, h⟩) (ms0_0 ⟨n, h⟩) (hs0_0 ⟨n, h⟩) (ms0_1 ⟨n, h⟩) (hs0_1 ⟨n, h⟩) (ms0_2 ⟨n, h⟩)
    (hs0_2 ⟨n, h⟩) ((hcond0_0 ⟨n, h⟩).mpr h0) (xblk V c ⟨n, h⟩) (lblk V c ⟨n, h⟩) y

/-- At a later tile it holds what the tile before left plus this tile's contribution. -/
theorem outsAt_step (c : Dev nD) (n : Nat) (h : n + 1 < cfg0.N) (hB : ¬(n + 1) % 4 = 0) :
    outsAt0 V c (n + 1) h
      = fun y => outsAt0 V c n (Nat.lt_of_succ_lt h) y + tileAdd (xblk V c ⟨n + 1, h⟩) (lblk V c ⟨n + 1, h⟩) y := by
  funext y
  refine (congrFun (outsAt0_B V c ⟨n + 1, h⟩ hB) y).trans ?_
  exact outB_eq c (grid0.coords ⟨n + 1, h⟩) (ms0_0 ⟨n + 1, h⟩) (hs0_0 ⟨n + 1, h⟩) (ms0_1 ⟨n + 1, h⟩) (hs0_1 ⟨n + 1, h⟩)
    (ms0_2 ⟨n + 1, h⟩) (hs0_2 ⟨n + 1, h⟩) (fun hh => hB ((hcond0_0 ⟨n + 1, h⟩).mp hh)) (xblk V c ⟨n + 1, h⟩)
    (lblk V c ⟨n + 1, h⟩) (outsAt0 V c n (Nat.lt_of_succ_lt h)) y

/-- After the last tile of batch row q the block holds the four tiles' contributions, summed. -/
theorem outsAt_last (c : Dev nD) (q : Nat) (h : 4 * q + 3 < cfg0.N) (y : S1x17x8.Idx) :
    outsAt0 V c (4 * q + 3) h y = ∑ s ∈ Finset.range 4, addend V c (4 * q + s) y := by
  have e := Pipeline.eq_accAt (N := cfg0.N) (fun n hn => outsAt0 V c n hn) 4
    (fun n hn => tileAdd (xblk V c ⟨n, hn⟩) (lblk V c ⟨n, hn⟩))
    (fun n hn acc => fun y => acc y + tileAdd (xblk V c ⟨n, hn⟩) (lblk V c ⟨n, hn⟩) y)
    (fun n hn h0 => outsAt_reset V c n hn h0) (fun n hn hB => outsAt_step V c n hn hB) q 3 (by decide) h
  refine (congrFun e y).trans ?_
  refine (Pipeline.accAt_add_apply (N := cfg0.N) _ _ (fun _ => (0 : EReal)) (addend V c) (4 * q) 3 ?_ ?_ 3 le_rfl h y).trans
    (zero_add _)
  · intro hb i
    unfold addend
    rw [dif_pos hb, zero_add]
  · intro n hn acc i _ _
    unfold addend
    rw [dif_pos hn]

end Region

/-! ## 5. The blocks as parts of the arrays, and the four tiles' sums as the whole sum -/

section Final

variable (V : (c : Dev nD) → (b : Ref sig .tc) → Buf (Elt Ideal) ((c : Thread nD τ).loc b))

/-- The three index maps at every point of the grid: point t reads batch row t / 4 and tile t % 4 of both inputs and
    writes batch row t / 4 of the output. -/
theorem idx_facts : ∀ t : Fin cfg0.N,
    win0_0.index t (0 : Fin 3) = t.val / 4 ∧ win0_0.index t (1 : Fin 3) = 0 ∧ win0_0.index t (2 : Fin 3) = t.val % 4
    ∧ win0_1.index t (0 : Fin 3) = t.val / 4 ∧ win0_1.index t (1 : Fin 3) = 0 ∧ win0_1.index t (2 : Fin 3) = t.val % 4
    ∧ win0_2.index t (0 : Fin 3) = t.val / 4 ∧ win0_2.index t (1 : Fin 3) = 0 ∧ win0_2.index t (2 : Fin 3) = 0 :=
  (by decide +kernel : ∀ t : Fin grid0.N, _)

/-- The features' block at point 4·q + s reads the array at batch row q and pixel 65536·s + j. -/
theorem xblk_apply (c : Dev nD) (t : Fin cfg0.N) (q s : Fin 4) (ht : t.val = 4 * q.val + s.val) (r : Fin 16)
    (j : Fin 65536) :
    xblk V c t (ix3 0 r j)
      = xarr V c (ix3 q r ⟨65536 * s.val + j.val, by have := s.isLt; have := j.isLt; omega⟩) := by
  obtain ⟨e0, e1, e2, -⟩ := idx_facts t
  show iblk0 V c 0 t (ix3 0 r j) = _
  unfold iblk0
  rw [View.read_apply]
  show V c main_v0 _ = V c main_v0 _
  refine congrArg (V c main_v0) (funext fun a => Fin.ext ?_)
  match a with
  | ⟨0, _⟩ => show win0_0.index t (0 : Fin 3) * 1 + 1 * 0 = q.val; rw [e0]; omega
  | ⟨1, _⟩ => show win0_0.index t (1 : Fin 3) * 16 + 1 * r.val = r.val; rw [e1]; omega
  | ⟨2, _⟩ => show win0_0.index t (2 : Fin 3) * 65536 + 1 * j.val = 65536 * s.val + j.val; rw [e2]; omega

/-- The labels' block likewise. -/
theorem lblk_apply (c : Dev nD) (t : Fin cfg0.N) (q s : Fin 4) (ht : t.val = 4 * q.val + s.val) (j : Fin 65536) :
    lblk V c t (ix3 0 0 j)
      = larr V c (ix3 q 0 ⟨65536 * s.val + j.val, by have := s.isLt; have := j.isLt; omega⟩) := by
  obtain ⟨-, -, -, e0, e1, e2, -⟩ := idx_facts t
  show iblk0 V c 1 t (ix3 0 0 j) = _
  unfold iblk0
  rw [View.read_apply]
  show V c main_v1 _ = V c main_v1 _
  refine congrArg (V c main_v1) (funext fun a => Fin.ext ?_)
  match a with
  | ⟨0, _⟩ => show win0_1.index t (0 : Fin 3) * 1 + 1 * 0 = q.val; rw [e0]; omega
  | ⟨1, _⟩ => show win0_1.index t (1 : Fin 3) * 1 + 1 * 0 = 0; rw [e1]
  | ⟨2, _⟩ => show win0_1.index t (2 : Fin 3) * 65536 + 1 * j.val = 65536 * s.val + j.val; rw [e2]; omega

end Final

section Final2

variable (V : (c : Dev nD) → (b : Ref sig .tc) → Buf (Elt Ideal) ((c : Thread nD τ).loc b))

open Cert.Spec (sums17 sums cnt sum_tiles)

set_option maxHeartbeats 400000 in
/-- The four tiles' contributions at (0, r, k), summed, are the whole sum over the 262144 pixels of batch row q: the
    per-class sum of feature r for r < 16, the per-class count for the last row. -/
theorem fold_eq (c : Dev nD) (q : Fin 4) (r : Fin 17) (k : Fin 8) :
    ∑ s ∈ Finset.range 4, addend V c (4 * q.val + s) (ix3 0 r k) = sums17 (xarr V c) (larr V c) (ix3 q r k) := by
  have hN : cfg0.N = 16 := N_0
  rw [Finset.sum_range]
  unfold Cert.Spec.sums17
  by_cases hr : r.val < 16
  · rw [dif_pos (show ((ix3 q r k : (⟨3, ![4, 17, 8]⟩ : Shape).Idx) 1).val < 16 from hr)]
    unfold Cert.Spec.sums
    rw [sum_tiles]
    refine Finset.sum_congr rfl fun s _ => ?_
    have hs : 4 * q.val + s.val < cfg0.N := by have := q.isLt; have := s.isLt; omega
    unfold addend
    rw [dif_pos hs]
    unfold tileAdd
    rw [dif_pos (show ((ix3 (0 : Fin 1) r k : S1x17x8.Idx) 1).val < 16 from hr)]
    refine Finset.sum_congr rfl fun j _ => ?_
    exact congrArg₂ (fun u l => u * ind l k)
      (xblk_apply V c ⟨4 * q.val + s.val, hs⟩ q s rfl ⟨r.val, hr⟩ j)
      (lblk_apply V c ⟨4 * q.val + s.val, hs⟩ q s rfl j)
  · rw [dif_neg (show ¬((ix3 q r k : (⟨3, ![4, 17, 8]⟩ : Shape).Idx) 1).val < 16 from hr)]
    unfold Cert.Spec.cnt
    rw [sum_tiles]
    refine Finset.sum_congr rfl fun s _ => ?_
    have hs : 4 * q.val + s.val < cfg0.N := by have := q.isLt; have := s.isLt; omega
    unfold addend
    rw [dif_pos hs]
    unfold tileAdd
    rw [dif_neg (show ¬((ix3 (0 : Fin 1) r k : S1x17x8.Idx) 1).val < 16 from hr)]
    refine Finset.sum_congr rfl fun j _ => ?_
    exact congrArg (fun l => ind l k) (lblk_apply V c ⟨4 * q.val + s.val, hs⟩ q s rfl j)

/-- After a batch row's last tile the block at index y holds the finished sums at the array index i with the same
    row and class, in that batch row. -/
theorem block_last (c : Dev nD) (t : Fin cfg0.N) (h3 : t.val % 4 = 3) (y : S1x17x8.Idx) (i : S4x17x8.Idx)
    (h0 : (i 0).val = t.val / 4) (h1 : (i 1).val = (y 1).val) (h2 : (i 2).val = (y 2).val) :
    outsAt0 V c t.val t.isLt y = sums17 (xarr V c) (larr V c) i := by
  have hN : cfg0.N = 16 := N_0
  obtain ⟨n, hn⟩ := t
  dsimp only at h3 h0 ⊢
  obtain ⟨q, rfl⟩ : ∃ q, n = 4 * q + 3 := ⟨n / 4, by omega⟩
  have hq : q < 4 := by omega
  have hy0 : y 0 = (0 : Fin 1) := Fin.ext (by show (y 0).val = 0; have h : (y 0).val < 1 := (y 0).isLt; omega)
  obtain ⟨r, k, rfl⟩ : ∃ (r : Fin 17) (k : Fin 8), y = ix3 0 r k := ⟨y 1, y 2, by rw [← hy0]; exact eq_ix3 y⟩
  have hi : i = ix3 (⟨q, hq⟩ : Fin 4) r k := (eq_ix3 i).trans (by
    have e0 : i 0 = (⟨q, hq⟩ : Fin 4) := Fin.ext (by show (i 0).val = q; omega)
    have e1 : i 1 = r := Fin.ext h1
    have e2 : i 2 = k := Fin.ext h2
    rw [e0, e1, e2]; rfl)
  rw [hi]
  exact (outsAt_last V c q hn (ix3 0 r k)).trans (fold_eq V c ⟨q, hq⟩ r k)

end Final2

/-! ## 6. The write-backs cover the array -/

section Final3

variable (V : (c : Dev nD) → (b : Ref sig .tc) → Buf (Elt Ideal) ((c : Thread nD τ).loc b))

open Cert.Spec (sums17)

/-- What a write-back point writes is its block of the finished array: the point is the last tile of its batch row, and
    the block's index (0, r, k) lies in the array at (t / 4, r, k). -/
theorem flushed_eq (c : Dev nD) (t : Fin cfg0.N) (hf : (cfg0.win 2).flush t = true) :
    (dat0 (F := Ideal) V c).flushed 2 t
      = ((cfg0.win 2).blk t).view.read (Elt Ideal) (sums17 (V c main_v0) (V c main_v1)) := by
  have h3 : t.val % 4 = 3 := (flush0_2 t).mp hf
  obtain ⟨-, -, -, -, -, -, e0, e1, e2⟩ := idx_facts t
  show (cfg0.win 2).cut (grid0.coords t) ((dat0 (F := Ideal) V c).after 2 t) = _
  rw [after0_2]
  funext y
  show outsAt0 V c t.val t.isLt y = sums17 (V c main_v0) (V c main_v1) (((cfg0.win 2).blk t).view.emb y)
  refine block_last V c t h3 y (((cfg0.win 2).blk t).view.emb y) ?_ ?_ ?_
  · show win0_2.index t (0 : Fin 3) * 1 + 1 * (y 0).val = t.val / 4
    have h : (y 0).val < 1 := (y 0).isLt
    rw [e0]; omega
  · show win0_2.index t (1 : Fin 3) * 17 + 1 * (y 1).val = (y 1).val
    rw [e1]; omega
  · show win0_2.index t (2 : Fin 3) * 8 + 1 * (y 2).val = (y 2).val
    rw [e2]; omega

/-- Every index (b, r, k) of the array lies in the block written back at point 4·b + 3. -/
theorem covered (i : S4x17x8.Idx) :
    ∃ t : Fin cfg0.N, (cfg0.win 2).flush t = true ∧ i ∈ ((cfg0.win 2).blk t).view.set := by
  have hN : cfg0.N = 16 := N_0
  have hi0 : (i 0).val < 4 := (i 0).isLt
  have hi1 : (i 1).val < 17 := (i 1).isLt
  have hi2 : (i 2).val < 8 := (i 2).isLt
  have ht : 4 * (i 0).val + 3 < cfg0.N := by omega
  obtain ⟨-, -, -, -, -, -, e0, e1, e2⟩ := idx_facts ⟨4 * (i 0).val + 3, ht⟩
  refine ⟨⟨4 * (i 0).val + 3, ht⟩, (flush0_2 _).mpr (by show (4 * (i 0).val + 3) % 4 = 3; omega), ?_⟩
  show i ∈ ((View.whole main_v2).slice (win0_2.rect ⟨4 * (i 0).val + 3, ht⟩)).set
  rw [View.set_slice_whole, Rect.mem_set_unit]
  intro a
  match a with
  | ⟨0, _⟩ =>
    show win0_2.index ⟨4 * (i 0).val + 3, ht⟩ (0 : Fin 3) * 1 ≤ (i 0).val
      ∧ (i 0).val < win0_2.index ⟨4 * (i 0).val + 3, ht⟩ (0 : Fin 3) * 1 + 1
    rw [e0]; dsimp only; omega
  | ⟨1, _⟩ =>
    show win0_2.index ⟨4 * (i 0).val + 3, ht⟩ (1 : Fin 3) * 17 ≤ (i 1).val
      ∧ (i 1).val < win0_2.index ⟨4 * (i 0).val + 3, ht⟩ (1 : Fin 3) * 17 + 17
    rw [e1]; omega
  | ⟨2, _⟩ =>
    show win0_2.index ⟨4 * (i 0).val + 3, ht⟩ (2 : Fin 3) * 8 ≤ (i 2).val
      ∧ (i 2).val < win0_2.index ⟨4 * (i 0).val + 3, ht⟩ (2 : Fin 3) * 8 + 8
    rw [e2]; omega

end Final3

/-- THE FIRST CALL'S ARRAY: whatever the region finds in its buffers, it leaves in its output [4, 17, 8] the per-class sums
    of the sixteen features (rows 0…15) and the per-class pixel counts (row 16) of the two arrays it reads. -/
theorem region0_arr (V : (c : Dev nD) → (b : Ref sig .tc) → Buf (Elt Ideal) ((c : Thread nD τ).loc b)) (c : Dev nD) :
    (Gen.dat0 (F := Ideal) V c).arrAt 2 cfg0.N = Cert.Spec.sums17 (V c main_v0) (V c main_v1) :=
  (Gen.dat0 (F := Ideal) V c).arrAt_eq_of_cover 2 (Cert.Spec.sums17 (V c main_v0) (V c main_v1))
    (fun t hf => flushed_eq V c t hf) covered

end Cert.KernelIdeal.R0

end
-- ==== Proof.Region1.lean ====
/-
  The second call's result array, read off its frame: each batch row's output cell ends holding the sum, over the
  four tiles of 65536 pixels of that row, of the squared clipped distances of the tile's pixels to their own class
  mean — the cell is reset to zero at the row's first tile, every tile adds its own lane sum to what the tile before
  left, and the cell is written back after the row's last tile.
-/
import proofs.«425639_j46677704573718_2_alg».proof.Proof.Gen.KernelIdeal.Frame
import proofs.«425639_j46677704573718_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.Tactic
open Idealize.ShloMosaic.Pipeline (Dat)
open Idealize.ShloMosaic.ValueIdx

namespace Cert.KernelIdeal.R1

open Cert.KernelIdeal Cert.KernelIdeal.Gen

section Pieces

variable {F : FTy → Type} [FloatOps F]

theorem hz3 : (![0, 0, 0] : Fin 3 → Nat) = fun _ => 0 := funext fun a => by fin_cases a <;> rfl

/-- At a tile that is not a row's first, the cell holding `xo` is left at `xo` plus the tile's lane sum. -/
theorem out_B (c : Dev nD) (i : grid1.Coords) (a2 : Memref sig .tc .vmem S1x16x65536 .f32) (h2 : a2.IsWhole)
    (a3 : Memref sig .tc .vmem S1x1x65536 .i32) (h3 : a3.IsWhole) (a4 : Memref sig .tc .vmem S1x16x8 .f32) (h4 : a4.IsWhole)
    (a5 : Memref sig .tc .vmem S1x1x1 .f32) (h5 : a5.IsWhole) (hc : ¬cond1_0 i)
    (x0 : Vec F S1x16x65536 .f32) (x1 : Vec F S1x1x65536 .i32) (x2 : Vec F S1x16x8 .f32) (xo : Vec F S1x1x1 .f32) :
    out1_B_3 c i a2 h2 a3 h3 a4 h4 a5 h5 hc x0 x1 x2 xo = k1_pay1 (k1_pay3 x0 x1 x2) xo := by
  unfold out1_B_3
  rw [View.read_writes_eq_canon _ _ _ (cover1_B_3 c i a2 h2 a3 h3 a4 h4 a5 h5 hc x0 x1 x2 xo)]
  unfold kernelRun1_B
  dsimp only
  sl_unfold_words
  rw [View.canon_unit_zero hz3]
  simp only [View.readAt_eq_ld, h2.read_unread, h3.read_unread, h4.read_unread, h5.read_unread,
    View.ld_unit_zero (S := S1x16x65536) hz3, View.ld_unit_zero (S := S1x1x65536) hz3,
    View.ld_unit_zero (S := S1x16x8) hz3, View.ld_unit_zero (S := S1x1x1) hz3]

/-- At a row's first tile the cell is first reset to zero, then left at zero plus the tile's lane sum. -/
theorem out_A (c : Dev nD) (i : grid1.Coords) (a2 : Memref sig .tc .vmem S1x16x65536 .f32) (h2 : a2.IsWhole)
    (a3 : Memref sig .tc .vmem S1x1x65536 .i32) (h3 : a3.IsWhole) (a4 : Memref sig .tc .vmem S1x16x8 .f32) (h4 : a4.IsWhole)
    (a5 : Memref sig .tc .vmem S1x1x1 .f32) (h5 : a5.IsWhole) (hc : cond1_0 i)
    (x0 : Vec F S1x16x65536 .f32) (x1 : Vec F S1x1x65536 .i32) (x2 : Vec F S1x16x8 .f32) :
    out1_A_3 c i a2 h2 a3 h3 a4 h4 a5 h5 hc x0 x1 x2 = k1_pay1 (k1_pay3 x0 x1 x2) (k1_pay2 (F := F)) := by
  unfold out1_A_3
  rw [View.read_writes_eq_canon _ _ _ (cover1_A_3 c i a2 h2 a3 h3 a4 h4 a5 h5 hc x0 x1 x2)]
  unfold kernelRun1_A
  dsimp only
  sl_unfold_words
  rw [View.canon_cons_unit_zero (S := S1x1x1) hz3, View.readCov_unit_zero (S := S1x1x1) _ hz3]
  simp only [View.readAt_eq_ld, h2.read_unread, h3.read_unread, h4.read_unread,
    View.ld_unit_zero (S := S1x16x65536) hz3, View.ld_unit_zero (S := S1x1x65536) hz3,
    View.ld_unit_zero (S := S1x16x8) hz3]

end Pieces

/-! ## The body's arithmetic at an index, over the extended reals -/

section Payload

open Cert.Spec (ind hinge)

variable (x0 : Vec Ideal S1x16x65536 .f32) (x1 : Vec Ideal S1x1x65536 .i32) (x2 : Vec Ideal S1x16x8 .f32)

/-- The tile's labels as one row. -/
abbrev labRow : IVec S1x65536 32 :=
  shapeCast S1x65536 (shapeCast S1x65536 x1 shapeCasts_S1x1x65536_S1x65536) shapeCasts_S1x65536_S1x65536

/-- The one-hot mask of the tile: entry (class, pixel) is one where the pixel's label is the class. -/
abbrev maskT : FVec Ideal S8x65536 .bf16 :=
  truncf .bf16 (sitofp .f32 (extui 32 (cmpi .eq (iota .tc S8x65536 32 [0] iota_S8x65536_d0_w32)
    (broadcastTo S8x65536 (labRow x1) broadcasts_S1x65536_S8x65536)) natLt_1_32)) bitsLt_bf16_f32

/-- The means block times the mask: entry (feature, pixel) is the mean of the pixel's own class. -/
abbrev selT : FVec Ideal S16x65536 .f32 :=
  matmul dot_S16x8_S8x65536_S16x65536_1_0_0_1_n_n none
    (truncf .bf16 (shapeCast S16x8 x2 shapeCasts_S1x16x8_S16x8) bitsLt_bf16_f32) (maskT x1)
    (constant S16x65536 .f32 0x00000000#32)

/-- The squared distance of each pixel to its own class mean, as one row. -/
abbrev sqT : FVec Ideal S1x65536 .f32 :=
  shapeCast S1x65536
    (multiReduction .add [0] S65536
      (mulf (subf (selT x1 x2) (shapeCast S16x65536 x0 shapeCasts_S1x16x65536_S16x65536))
        (subf (selT x1 x2) (shapeCast S16x65536 x0 shapeCasts_S1x16x65536_S16x65536)))
      0x00000000#32 reduces_S16x65536_S65536 (.inl rfl) rfl)
    shapeCasts_S65536_S1x65536

/-- The square root guarded at non-positive entries, less one half, clipped to [0, 10⁵], entry by entry. -/
def clipRow (s : FVec Ideal S1x65536 .f32) : FVec Ideal S1x65536 .f32 :=
  minimumf (broadcast S1x65536 (Scalar.ofBits .f32 0x47C35000#32))
    (maximumf (broadcast S1x65536 (Scalar.ofBits .f32 0x00000000#32))
      (subf
        (select (cmpf .ogt s (broadcast S1x65536 (Scalar.ofBits .f32 0x00000000#32)))
          (sqrt (select (cmpf .ogt s (broadcast S1x65536 (Scalar.ofBits .f32 0x00000000#32))) s
            (broadcast S1x65536 (Scalar.ofBits .f32 0x3F800000#32))))
          (broadcast S1x65536 (Scalar.ofBits .f32 0x00000000#32)))
        (broadcast S1x65536 (Scalar.ofBits .f32 0x3F000000#32))))

/-- The body's per-pixel value is the clip of the squared-distance row. -/
theorem pay3_eq : k1_pay3 x0 x1 x2 = clipRow (sqT x0 x1 x2) := by
  unfold k1_pay3 clipRow
  rfl

/-- The clipped distance, squared, is the hinge of the squared distance: the same comparisons, selections and
    literals, entry by entry. -/
theorem clipRow_sq (s : FVec Ideal S1x65536 .f32) (i : S1x65536.Idx) :
    clipRow s i * clipRow s i = hinge (s i) := by
  unfold clipRow hinge
  rfl

end Payload

section PayloadIdx

open Cert.Spec (ind hinge)

variable (x0 : Vec Ideal S1x16x65536 .f32) (x1 : Vec Ideal S1x1x65536 .i32) (x2 : Vec Ideal S1x16x8 .f32)

/-- The label row at pixel `j` is the label block's entry there. -/
theorem labRow_apply (j : Fin 65536) : labRow x1 (ix2 (0 : Fin 1) j) = x1 (ix3 (0 : Fin 1) (0 : Fin 1) j) := by
  unfold labRow
  rw [shapeCast_self]
  exact shapeCast_1ab_ab_apply x1 shapeCasts_S1x1x65536_S1x65536 (0 : Fin 1) j

/-- The word "class `k` equals label `l`", widened and read as a number, is the indicator. -/
theorem ind_word (l : BitVec 32) (k : Fin 8) :
    (FloatOps.sitofp (F := Ideal) .f32 ((IntOp.cmpi .eq (BitVec.ofNat 32 k.val) l).setWidth 32) : EReal) = ind l k := by
  have hc : IntOp.cmpi .eq (BitVec.ofNat 32 k.val) l = if l = BitVec.ofNat 32 k.val then 1#1 else 0#1 := by
    unfold IntOp.cmpi
    by_cases h : l = BitVec.ofNat 32 k.val
    · subst h; simp
    · rw [if_neg h]
      have h' : (BitVec.ofNat 32 k.val == l) = false := by
        rw [beq_eq_false_iff_ne]; exact fun e => h e.symm
      simp [h']
  rw [hc]; unfold ind
  split
  · show (((((1#1 : BitVec 1).setWidth 32).toInt : ℤ) : ℝ) : EReal) = 1
    rw [show ((1#1 : BitVec 1).setWidth 32).toInt = 1 from by decide]; simp
  · show (((((0#1 : BitVec 1).setWidth 32).toInt : ℤ) : ℝ) : EReal) = 0
    rw [show ((0#1 : BitVec 1).setWidth 32).toInt = 0 from by decide]; simp

/-- The mask's entry (class `k`, pixel `j`) is the indicator of the pixel's label at `k`. -/
theorem maskT_apply (k : Fin 8) (j : Fin 65536) :
    maskT x1 (ix2 k j) = ind (x1 (ix3 (0 : Fin 1) (0 : Fin 1) j)) k := by
  show (FloatOps.sitofp (F := Ideal) .f32
    ((IntOp.cmpi .eq (iota .tc S8x65536 32 [0] iota_S8x65536_d0_w32 (ix2 k j))
      (broadcastTo S8x65536 (labRow x1) broadcasts_S1x65536_S8x65536 (ix2 k j))).setWidth 32) : EReal) = _
  rw [iota_single_apply, broadcastTo_1b_ab_apply, labRow_apply]
  exact ind_word _ k

/-! The dot's operand indices, axis by axis: the output's (feature, pixel) and the class summed over. -/

theorem lhs_sel_0 (i : S16x65536.Idx) (q : dot_S16x8_S8x65536_S16x65536_1_0_0_1_n_n.contr.Idx) :
    (dot_S16x8_S8x65536_S16x65536_1_0_0_1_n_n.lhsIdx i q 0).val = (i 0).val := by
  unfold DotDims.lhsIdx
  rw [dif_neg (show ¬(0 : Fin S16x8.rank) ∈ dot_S16x8_S8x65536_S16x65536_1_0_0_1_n_n.lhsBatch by decide), dif_pos (show (0 : Fin S16x8.rank) ∈ dot_S16x8_S8x65536_S16x65536_1_0_0_1_n_n.lhsNonContracting by decide)]
  rfl
theorem lhs_sel_1 (i : S16x65536.Idx) (q : dot_S16x8_S8x65536_S16x65536_1_0_0_1_n_n.contr.Idx) :
    (dot_S16x8_S8x65536_S16x65536_1_0_0_1_n_n.lhsIdx i q 1).val = (q ⟨0, by decide⟩).val :=
  dot_S16x8_S8x65536_S16x65536_1_0_0_1_n_n.lhsIdx_val_of_single rfl i q
theorem rhs_sel_0 (i : S16x65536.Idx) (q : dot_S16x8_S8x65536_S16x65536_1_0_0_1_n_n.contr.Idx) :
    (dot_S16x8_S8x65536_S16x65536_1_0_0_1_n_n.rhsIdx i q 0).val = (q ⟨0, by decide⟩).val :=
  dot_S16x8_S8x65536_S16x65536_1_0_0_1_n_n.rhsIdx_val_of_single rfl i q
theorem rhs_sel_1 (i : S16x65536.Idx) (q : dot_S16x8_S8x65536_S16x65536_1_0_0_1_n_n.contr.Idx) :
    (dot_S16x8_S8x65536_S16x65536_1_0_0_1_n_n.rhsIdx i q 1).val = (i 1).val := by
  unfold DotDims.rhsIdx
  rw [dif_neg (show ¬(1 : Fin S8x65536.rank) ∈ dot_S16x8_S8x65536_S16x65536_1_0_0_1_n_n.rhsBatch by decide), dif_pos (show (1 : Fin S8x65536.rank) ∈ dot_S16x8_S8x65536_S16x65536_1_0_0_1_n_n.rhsNonContracting by decide)]
  rfl

/-- The selected mean of feature `f` at pixel `j`: the means block's row `f` against the pixel's indicator. -/
theorem selT_apply (f : Fin 16) (j : Fin 65536) :
    selT x1 x2 (ix2 f j) = ∑ k : Fin 8, x2 (ix3 (0 : Fin 1) f k) * ind (x1 (ix3 (0 : Fin 1) (0 : Fin 1) j)) k := by
  unfold selT
  simp only [matmul]
  rw [Ideal.matmul_constant_zero_apply, ← Equiv.sum_comp (ValueIdx.contrEquiv1 dot_S16x8_S8x65536_S16x65536_1_0_0_1_n_n 8 rfl rfl).symm]
  refine Finset.sum_congr rfl fun k _ => ?_
  have hk := ValueIdx.contrEquiv1_symm_val dot_S16x8_S8x65536_S16x65536_1_0_0_1_n_n 8 rfl rfl k
  have el : dot_S16x8_S8x65536_S16x65536_1_0_0_1_n_n.lhsIdx (ix2 f j) ((ValueIdx.contrEquiv1 dot_S16x8_S8x65536_S16x65536_1_0_0_1_n_n 8 rfl rfl).symm k) = ix2 f k := funext fun a => Fin.ext (by
    match a with
    | ⟨0, _⟩ => exact lhs_sel_0 _ _
    | ⟨1, _⟩ => exact (lhs_sel_1 _ _).trans hk)
  have er : dot_S16x8_S8x65536_S16x65536_1_0_0_1_n_n.rhsIdx (ix2 f j) ((ValueIdx.contrEquiv1 dot_S16x8_S8x65536_S16x65536_1_0_0_1_n_n 8 rfl rfl).symm k) = ix2 k j := funext fun a => Fin.ext (by
    match a with
    | ⟨0, _⟩ => exact (rhs_sel_0 _ _).trans hk
    | ⟨1, _⟩ => exact rhs_sel_1 _ _)
  rw [el, er, maskT_apply]
  refine congrArg (· * _) ?_
  show shapeCast S16x8 x2 shapeCasts_S1x16x8_S16x8 (ix2 f k) = _
  exact shapeCast_1ab_ab_apply x2 shapeCasts_S1x16x8_S16x8 f k

end PayloadIdx

section PayloadSums

open Cert.Spec (ind hinge)

variable (x0 : Vec Ideal S1x16x65536 .f32) (x1 : Vec Ideal S1x1x65536 .i32) (x2 : Vec Ideal S1x16x8 .f32)

/-- The squared distance at pixel `j`: the sum over the 16 features of the squared difference between the selected
    mean and the embedding. -/
theorem sqT_apply (j : Fin 65536) :
    sqT x0 x1 x2 (ix2 (0 : Fin 1) j)
      = ∑ f : Fin 16,
          ((∑ k : Fin 8, x2 (ix3 (0 : Fin 1) f k) * ind (x1 (ix3 (0 : Fin 1) (0 : Fin 1) j)) k) - x0 (ix3 (0 : Fin 1) f j))
            * ((∑ k : Fin 8, x2 (ix3 (0 : Fin 1) f k) * ind (x1 (ix3 (0 : Fin 1) (0 : Fin 1) j)) k) - x0 (ix3 (0 : Fin 1) f j)) := by
  unfold sqT
  refine (shapeCast_a_1a_apply _ shapeCasts_S65536_S1x65536 (0 : Fin 1) j).trans ?_
  refine (Ideal.multiReduction_add_single _ 0x00000000#32 reduces_S16x65536_S65536 (.inl rfl) rfl (ix1 j)).trans ?_
  show ∑ f : Fin 16, _ = _
  refine Finset.sum_congr rfl fun f _ => ?_
  have hl : reduces_S16x65536_S65536.lift (ix1 j) f = ix2 f j := funext fun a => Fin.ext (by
    match a with
    | ⟨0, _⟩ => rfl
    | ⟨1, _⟩ => rfl)
  rw [hl, mulf_apply, subf_apply, selT_apply]
  rw [show shapeCast S16x65536 x0 shapeCasts_S1x16x65536_S16x65536 (ix2 f j) = x0 (ix3 (0 : Fin 1) f j) from
    shapeCast_1ab_ab_apply x0 shapeCasts_S1x16x65536_S16x65536 f j]

/-- The accumulating store at the cell's one index: what the cell held plus the sum over the tile's pixels of the
    squared per-pixel values. -/
theorem pay1_apply (v : FVec Ideal S1x65536 .f32) (xo : Vec Ideal S1x1x1 .f32) :
    k1_pay1 v xo (ix3 (0 : Fin 1) (0 : Fin 1) (0 : Fin 1))
      = xo (ix3 (0 : Fin 1) (0 : Fin 1) (0 : Fin 1)) + ∑ j : Fin 65536, v (ix2 (0 : Fin 1) j) * v (ix2 (0 : Fin 1) j) := by
  unfold k1_pay1
  refine (shapeCast_ab_1ab_apply _ shapeCasts_S1x1_S1x1x1 (0 : Fin 1) (0 : Fin 1) (0 : Fin 1)).trans ?_
  rw [addf_apply]
  refine congrArg₂ (· + ·) (shapeCast_1ab_ab_apply xo shapeCasts_S1x1x1_S1x1 (0 : Fin 1) (0 : Fin 1)) ?_
  refine (shapeCast_a_1a_apply _ shapeCasts_S1_S1x1 (0 : Fin 1) (0 : Fin 1)).trans ?_
  refine (Ideal.multiReduction_add_single _ 0x00000000#32 reduces_S1x65536_S1 (.inl rfl) rfl (ix1 (0 : Fin 1))).trans ?_
  show ∑ j : Fin 65536, _ = _
  refine Finset.sum_congr rfl fun j _ => ?_
  have hl : reduces_S1x65536_S1.lift (ix1 (0 : Fin 1)) j = ix2 (0 : Fin 1) j := funext fun a => Fin.ext (by
    match a with
    | ⟨0, _⟩ => rfl
    | ⟨1, _⟩ => rfl)
  rw [hl, mulf_apply]

/-- One tile's contribution: the sum over its pixels of the hinge of the squared distance to the selected mean. -/
def tileSum : EReal :=
  ∑ j : Fin 65536, hinge (∑ f : Fin 16,
    ((∑ k : Fin 8, x2 (ix3 (0 : Fin 1) f k) * ind (x1 (ix3 (0 : Fin 1) (0 : Fin 1) j)) k) - x0 (ix3 (0 : Fin 1) f j))
      * ((∑ k : Fin 8, x2 (ix3 (0 : Fin 1) f k) * ind (x1 (ix3 (0 : Fin 1) (0 : Fin 1) j)) k) - x0 (ix3 (0 : Fin 1) f j)))

/-- The body's accumulating store at the cell's one index: what the cell held plus the tile's contribution. -/
theorem pay_apply (xo : Vec Ideal S1x1x1 .f32) :
    k1_pay1 (k1_pay3 x0 x1 x2) xo (ix3 (0 : Fin 1) (0 : Fin 1) (0 : Fin 1))
      = xo (ix3 (0 : Fin 1) (0 : Fin 1) (0 : Fin 1)) + tileSum x0 x1 x2 := by
  rw [pay1_apply, pay3_eq]
  refine congrArg (_ + ·) (Finset.sum_congr rfl fun j _ => ?_)
  rw [clipRow_sq, sqT_apply]

/-- The reset value at the cell's one index is zero. -/
theorem pay2_apply : (k1_pay2 (F := Ideal)) (ix3 (0 : Fin 1) (0 : Fin 1) (0 : Fin 1)) = 0 := by
  unfold k1_pay2
  refine (shapeCast_ab_1ab_apply _ shapeCasts_S1x1_S1x1x1 (0 : Fin 1) (0 : Fin 1) (0 : Fin 1)).trans ?_
  rw [broadcast_apply]
  exact Ideal.ofBits_zero_f32

end PayloadSums

/-! ## The input blocks as parts of the arrays; the running sum over a batch row's tiles -/

section Blocks

variable (V : (c : Dev nD) → (b : Ref sig .tc) → Buf (Elt Ideal) ((c : Thread nD τ).loc b))

/-- The embedding, label and means arrays as the call finds them, and the blocks of them a point reads. -/
abbrev xarr (c : Dev nD) : Vec Ideal S4x16x262144 .f32 := V c main_v0
abbrev larr (c : Dev nD) : Vec Ideal S4x1x262144 .i32 := V c main_v1
abbrev marr (c : Dev nD) : Vec Ideal S4x16x8 .f32 := V c main_v8
abbrev xblk (c : Dev nD) (t : Fin cfg1.N) : Vec Ideal S1x16x65536 .f32 := iblk1 V c 0 t
abbrev lblk (c : Dev nD) (t : Fin cfg1.N) : Vec Ideal S1x1x65536 .i32 := iblk1 V c 1 t
abbrev mblk (c : Dev nD) (t : Fin cfg1.N) : Vec Ideal S1x16x8 .f32 := iblk1 V c 2 t

/-- Point `t` is batch row `t / 4`, tile `t % 4`: the windows' block indices, decided over the grid. -/
theorem idx_facts : ∀ t : Fin cfg1.N,
    (win1_0.index t 0 = t.val / 4 ∧ win1_0.index t 1 = 0 ∧ win1_0.index t 2 = t.val % 4)
    ∧ (win1_1.index t 0 = t.val / 4 ∧ win1_1.index t 1 = 0 ∧ win1_1.index t 2 = t.val % 4)
    ∧ (win1_2.index t 0 = t.val / 4 ∧ win1_2.index t 1 = 0 ∧ win1_2.index t 2 = 0)
    ∧ (win1_3.index t 0 = t.val / 4 ∧ win1_3.index t 1 = 0 ∧ win1_3.index t 2 = 0) :=
  (by decide +kernel : ∀ t : Fin grid1.N,
    (win1_0.index t 0 = t.val / 4 ∧ win1_0.index t 1 = 0 ∧ win1_0.index t 2 = t.val % 4)
    ∧ (win1_1.index t 0 = t.val / 4 ∧ win1_1.index t 1 = 0 ∧ win1_1.index t 2 = t.val % 4)
    ∧ (win1_2.index t 0 = t.val / 4 ∧ win1_2.index t 1 = 0 ∧ win1_2.index t 2 = 0)
    ∧ (win1_3.index t 0 = t.val / 4 ∧ win1_3.index t 1 = 0 ∧ win1_3.index t 2 = 0))

theorem pt_lt (t : Fin cfg1.N) : t.val < 16 := lt_of_lt_of_eq t.isLt (show cfg1.N = 16 from N_1)

/-- The batch row of a point, and the pixel of the row that entry `j` of the point's tile is. -/
def rowOf (t : Fin cfg1.N) : Fin 4 := ⟨t.val / 4, by have := pt_lt t; omega⟩
def pixOf (t : Fin cfg1.N) (j : Fin 65536) : Fin 262144 :=
  ⟨65536 * (t.val % 4) + j.val, by have := j.isLt; omega⟩

theorem xblk_apply (c : Dev nD) (t : Fin cfg1.N) (f : Fin 16) (j : Fin 65536) :
    xblk V c t (ix3 (0 : Fin 1) f j) = xarr V c (ix3 (rowOf t) f (pixOf t j)) := by
  unfold xblk iblk1
  rw [View.read_apply]
  show V c main_v0 _ = V c main_v0 _
  refine congrArg (V c main_v0) (funext fun a => Fin.ext ?_)
  obtain ⟨⟨h0, h1, h2⟩, -, -, -⟩ := idx_facts t
  match a with
  | ⟨0, _⟩ => show win1_0.index t 0 * 1 + 1 * 0 = t.val / 4; rw [h0]; omega
  | ⟨1, _⟩ => show win1_0.index t 1 * 16 + 1 * f.val = f.val; rw [h1]; omega
  | ⟨2, _⟩ => show win1_0.index t 2 * 65536 + 1 * j.val = 65536 * (t.val % 4) + j.val; rw [h2]; omega

theorem lblk_apply (c : Dev nD) (t : Fin cfg1.N) (j : Fin 65536) :
    lblk V c t (ix3 (0 : Fin 1) (0 : Fin 1) j) = larr V c (ix3 (rowOf t) (0 : Fin 1) (pixOf t j)) := by
  unfold lblk iblk1
  rw [View.read_apply]
  show V c main_v1 _ = V c main_v1 _
  refine congrArg (V c main_v1) (funext fun a => Fin.ext ?_)
  obtain ⟨-, ⟨h0, h1, h2⟩, -, -⟩ := idx_facts t
  match a with
  | ⟨0, _⟩ => show win1_1.index t 0 * 1 + 1 * 0 = t.val / 4; rw [h0]; omega
  | ⟨1, _⟩ => show win1_1.index t 1 * 1 + 1 * 0 = 0; rw [h1]
  | ⟨2, _⟩ => show win1_1.index t 2 * 65536 + 1 * j.val = 65536 * (t.val % 4) + j.val; rw [h2]; omega

theorem mblk_apply (c : Dev nD) (t : Fin cfg1.N) (f : Fin 16) (k : Fin 8) :
    mblk V c t (ix3 (0 : Fin 1) f k) = marr V c (ix3 (rowOf t) f k) := by
  unfold mblk iblk1
  rw [View.read_apply]
  show V c main_v8 _ = V c main_v8 _
  refine congrArg (V c main_v8) (funext fun a => Fin.ext ?_)
  obtain ⟨-, -, ⟨h0, h1, h2⟩, -⟩ := idx_facts t
  match a with
  | ⟨0, _⟩ => show win1_2.index t 0 * 1 + 1 * 0 = t.val / 4; rw [h0]; omega
  | ⟨1, _⟩ => show win1_2.index t 1 * 16 + 1 * f.val = f.val; rw [h1]; omega
  | ⟨2, _⟩ => show win1_2.index t 2 * 8 + 1 * k.val = k.val; rw [h2]; omega

end Blocks

section Accumulate

open Cert.Spec (ind hinge dist1)

variable (V : (c : Dev nD) → (b : Ref sig .tc) → Buf (Elt Ideal) ((c : Thread nD τ).loc b))

/-- One pixel's term of a batch row's total, over the arrays. -/
def pixTerm (A : S4x16x262144.Idx → EReal) (T : S4x1x262144.Idx → BitVec 32) (M : S4x16x8.Idx → EReal)
    (b : Fin 4) (n : Fin 262144) : EReal :=
  hinge (∑ f : Fin 16,
    ((∑ k : Fin 8, M (ix3 b f k) * ind (T (ix3 b (0 : Fin 1) n)) k) - A (ix3 b f n))
      * ((∑ k : Fin 8, M (ix3 b f k) * ind (T (ix3 b (0 : Fin 1) n)) k) - A (ix3 b f n)))

/-- Tile `s` of batch row `b`: its 65536 pixels' terms, summed. -/
def tileOf (A : S4x16x262144.Idx → EReal) (T : S4x1x262144.Idx → BitVec 32) (M : S4x16x8.Idx → EReal)
    (b s : Fin 4) : EReal :=
  ∑ j : Fin 65536, pixTerm A T M b ⟨65536 * s.val + j.val, by have := s.isLt; have := j.isLt; omega⟩

/-- A batch row's total is the sum of its four tiles. -/
theorem dist1_tiles (A : S4x16x262144.Idx → EReal) (T : S4x1x262144.Idx → BitVec 32) (M : S4x16x8.Idx → EReal)
    (b : Fin 4) : dist1 A T M (ix3 b (0 : Fin 1) (0 : Fin 1)) = ∑ s : Fin 4, tileOf A T M b s :=
  Cert.Spec.sum_tiles (pixTerm A T M b)

/-- The tile a point computes from its blocks is that tile of the arrays. -/
theorem tile_eq (c : Dev nD) (t : Fin cfg1.N) :
    tileSum (xblk V c t) (lblk V c t) (mblk V c t)
      = tileOf (xarr V c) (larr V c) (marr V c) (rowOf t) ⟨t.val % 4, Nat.mod_lt _ (by decide)⟩ := by
  unfold tileSum tileOf pixTerm
  refine Finset.sum_congr rfl fun j _ => congrArg hinge (Finset.sum_congr rfl fun f _ => ?_)
  have hs : (∑ k : Fin 8, mblk V c t (ix3 (0 : Fin 1) f k) * ind (lblk V c t (ix3 (0 : Fin 1) (0 : Fin 1) j)) k)
      = ∑ k : Fin 8, marr V c (ix3 (rowOf t) f k) * ind (larr V c (ix3 (rowOf t) (0 : Fin 1) (pixOf t j))) k :=
    Finset.sum_congr rfl fun k _ => by rw [mblk_apply, lblk_apply]
  rw [hs, xblk_apply]
  rfl

/-- A point's tile, as a function of every natural (zero past the grid). -/
def tileAt (c : Dev nD) (n : ℕ) : EReal :=
  if h : n < cfg1.N then tileSum (xblk V c ⟨n, h⟩) (lblk V c ⟨n, h⟩) (mblk V c ⟨n, h⟩) else 0

theorem tileAt_of_lt (c : Dev nD) (n : ℕ) (h : n < cfg1.N) :
    tileAt V c n = tileSum (xblk V c ⟨n, h⟩) (lblk V c ⟨n, h⟩) (mblk V c ⟨n, h⟩) := dif_pos h

/-- At a row's first tile the cell is left at that tile's sum. -/
theorem cell_first (c : Dev nD) (t : Fin cfg1.N) (h0 : t.val % 4 = 0) :
    outsAt1 V c t.val t.isLt (ix3 (0 : Fin 1) (0 : Fin 1) (0 : Fin 1)) = tileSum (xblk V c t) (lblk V c t) (mblk V c t) := by
  rw [outsAt1_A V c t h0]
  refine (congrFun (out_A (F := Ideal) c (grid1.coords t) (ms1_0 t) (hs1_0 t) (ms1_1 t) (hs1_1 t) (ms1_2 t) (hs1_2 t)
    (ms1_3 t) (hs1_3 t) ((hcond1_0 t).mpr h0) (xblk V c t) (lblk V c t) (mblk V c t))
    (ix3 (0 : Fin 1) (0 : Fin 1) (0 : Fin 1))).trans ?_
  rw [pay_apply, pay2_apply, zero_add]

/-- At every other tile the cell is left at what the tile before left plus this tile's sum. -/
theorem cell_next (c : Dev nD) (t : Fin cfg1.N) (h0 : ¬t.val % 4 = 0) :
    outsAt1 V c t.val t.isLt (ix3 (0 : Fin 1) (0 : Fin 1) (0 : Fin 1))
      = outsAt1 V c (t.val - 1) (Nat.lt_of_le_of_lt (Nat.sub_le _ _) t.isLt) (ix3 (0 : Fin 1) (0 : Fin 1) (0 : Fin 1))
        + tileSum (xblk V c t) (lblk V c t) (mblk V c t) := by
  rw [outsAt1_B V c t h0]
  refine (congrFun (out_B (F := Ideal) c (grid1.coords t) (ms1_0 t) (hs1_0 t) (ms1_1 t) (hs1_1 t) (ms1_2 t) (hs1_2 t)
    (ms1_3 t) (hs1_3 t) (fun h => h0 ((hcond1_0 t).mp h)) (xblk V c t) (lblk V c t) (mblk V c t)
    (outsAt1 V c (t.val - 1) (Nat.lt_of_le_of_lt (Nat.sub_le _ _) t.isLt)))
    (ix3 (0 : Fin 1) (0 : Fin 1) (0 : Fin 1))).trans ?_
  rw [pay_apply]

/-- THE RUNNING SUM: after point `n` the cell holds the sum of the tiles of `n`'s row up to `n`'s own. -/
theorem cell_eq (c : Dev nD) : ∀ (n : ℕ) (h : n < cfg1.N),
    outsAt1 V c n h (ix3 (0 : Fin 1) (0 : Fin 1) (0 : Fin 1))
      = ∑ s ∈ Finset.range (n % 4 + 1), tileAt V c (4 * (n / 4) + s)
  | 0, h => by
    refine (cell_first V c ⟨0, h⟩ rfl).trans ?_
    show _ = ∑ s ∈ Finset.range 1, tileAt V c (0 + s)
    rw [Finset.sum_range_one, tileAt_of_lt V c 0 h]
  | n + 1, h => by
    by_cases h0 : (n + 1) % 4 = 0
    · refine (cell_first V c ⟨n + 1, h⟩ h0).trans ?_
      have e : 4 * ((n + 1) / 4) + 0 = n + 1 := by omega
      rw [h0, Finset.sum_range_one, e, tileAt_of_lt V c (n + 1) h]
    · refine (cell_next V c ⟨n + 1, h⟩ h0).trans ?_
      show outsAt1 V c n _ _ + _ = _
      rw [cell_eq c n (Nat.lt_of_succ_lt h)]
      have e1 : (n + 1) % 4 = n % 4 + 1 := by omega
      have e2 : (n + 1) / 4 = n / 4 := by omega
      have e3 : 4 * (n / 4) + (n % 4 + 1) = n + 1 := by omega
      rw [e1, e2, Finset.sum_range_succ _ (n % 4 + 1), e3, tileAt_of_lt V c (n + 1) h]

end Accumulate

section Final

open Cert.Spec (dist1)

variable (V : (c : Dev nD) → (b : Ref sig .tc) → Buf (Elt Ideal) ((c : Thread nD τ).loc b))

/-- After a row's last tile the cell holds the row's total. -/
theorem cell_last (c : Dev nD) (t : Fin cfg1.N) (h3 : t.val % 4 = 3) :
    outsAt1 V c t.val t.isLt (ix3 (0 : Fin 1) (0 : Fin 1) (0 : Fin 1))
      = dist1 (xarr V c) (larr V c) (marr V c) (ix3 (rowOf t) (0 : Fin 1) (0 : Fin 1)) := by
  rw [cell_eq V c t.val t.isLt, h3, dist1_tiles]
  show ∑ s ∈ Finset.range 4, _ = _
  rw [Finset.sum_range]
  refine Finset.sum_congr rfl fun s _ => ?_
  have hN := pt_lt t
  have hs := s.isLt
  have hlt : 4 * (t.val / 4) + s.val < cfg1.N := lt_of_lt_of_eq (by omega) (show (16 : ℕ) = cfg1.N from N_1.symm)
  rw [tileAt_of_lt V c _ hlt, tile_eq]
  congr 1
  · exact Fin.ext (by show (4 * (t.val / 4) + s.val) / 4 = t.val / 4; omega)
  · exact Fin.ext (by show (4 * (t.val / 4) + s.val) % 4 = s.val; omega)

/-- The output block has one index. -/
theorem cell_idx (y : S1x1x1.Idx) : y = ix3 (0 : Fin 1) (0 : Fin 1) (0 : Fin 1) :=
  funext fun a => Fin.ext (by
    match a with
    | ⟨0, _⟩ => have h : (y 0).val < 1 := (y 0).isLt; show (y 0).val = 0; omega
    | ⟨1, _⟩ => have h : (y 1).val < 1 := (y 1).isLt; show (y 1).val = 0; omega
    | ⟨2, _⟩ => have h : (y 2).val < 1 := (y 2).isLt; show (y 2).val = 0; omega)

/-- What a row's last point writes back is that row's cell of the totals. -/
theorem flushed_eq (c : Dev nD) (t : Fin cfg1.N) (hf : (cfg1.win 3).flush t = true) :
    (dat1 V c).flushed 3 t
      = ((cfg1.win 3).blk t).view.read (Elt Ideal) (dist1 (xarr V c) (larr V c) (marr V c)) := by
  have h3 : t.val % 4 = 3 := (flush1_3 t).mp hf
  show (cfg1.win 3).cut (grid1.coords t) ((dat1 V c).after 3 t) = _
  rw [after1_3]
  funext y
  rw [View.read_apply]
  have hx : (cfg1.win 3).xinj (grid1.coords t) y = ix3 (0 : Fin 1) (0 : Fin 1) (0 : Fin 1) := cell_idx _
  show outsAt1 V c t.val t.isLt ((cfg1.win 3).xinj (grid1.coords t) y) = _
  rw [hx, cell_last V c t h3]
  refine Eq.trans ?_ (cast_eq _ _).symm
  refine congrArg (dist1 (xarr V c) (larr V c) (marr V c)) (funext fun a => Fin.ext ?_)
  obtain ⟨-, -, -, ⟨h0, h1, h2⟩⟩ := idx_facts t
  match a with
  | ⟨0, _⟩ =>
    have hy : (y 0).val < 1 := (y 0).isLt
    show t.val / 4 = win1_3.index t 0 * 1 + 1 * (y 0).val; rw [h0]; omega
  | ⟨1, _⟩ =>
    have hy : (y 1).val < 1 := (y 1).isLt
    show 0 = win1_3.index t 1 * 1 + 1 * (y 1).val; rw [h1]; omega
  | ⟨2, _⟩ =>
    have hy : (y 2).val < 1 := (y 2).isLt
    show 0 = win1_3.index t 2 * 1 + 1 * (y 2).val; rw [h2]; omega

/-- Every cell of the totals is in the block of its row's last point. -/
theorem cover (c : Dev nD) (i : S4x1x1.Idx) :
    ∃ t : Fin cfg1.N, (cfg1.win 3).flush t = true ∧ i ∈ ((cfg1.win 3).blk t).view.set := by
  have hi0 : (i 0).val < 4 := (i 0).isLt
  have hi1 : (i 1).val < 1 := (i 1).isLt
  have hi2 : (i 2).val < 1 := (i 2).isLt
  have hlt : 4 * (i 0).val + 3 < cfg1.N := lt_of_lt_of_eq (by omega) (show (16 : ℕ) = cfg1.N from N_1.symm)
  refine ⟨⟨4 * (i 0).val + 3, hlt⟩, (flush1_3 _).mpr (by show (4 * (i 0).val + 3) % 4 = 3; omega), ?_⟩
  show i ∈ ((View.whole main_v14).slice (win1_3.rect ⟨4 * (i 0).val + 3, hlt⟩)).set
  rw [View.set_slice_whole, Rect.mem_set_unit]
  obtain ⟨-, -, -, ⟨h0, h1, h2⟩⟩ := idx_facts ⟨4 * (i 0).val + 3, hlt⟩
  have h0' : win1_3.index ⟨4 * (i 0).val + 3, hlt⟩ 0 = (4 * (i 0).val + 3) / 4 := h0
  intro a
  match a with
  | ⟨0, _⟩ =>
    show win1_3.index ⟨4 * (i 0).val + 3, hlt⟩ 0 * 1 ≤ (i 0).val ∧ (i 0).val < win1_3.index ⟨4 * (i 0).val + 3, hlt⟩ 0 * 1 + 1
    rw [h0']; omega
  | ⟨1, _⟩ =>
    show win1_3.index ⟨4 * (i 0).val + 3, hlt⟩ 1 * 1 ≤ (i 1).val ∧ (i 1).val < win1_3.index ⟨4 * (i 0).val + 3, hlt⟩ 1 * 1 + 1
    rw [h1]; omega
  | ⟨2, _⟩ =>
    show win1_3.index ⟨4 * (i 0).val + 3, hlt⟩ 2 * 1 ≤ (i 2).val ∧ (i 2).val < win1_3.index ⟨4 * (i 0).val + 3, hlt⟩ 2 * 1 + 1
    rw [h2]; omega

end Final

/-- THE SECOND CALL'S RESULT ARRAY: per batch row, the sum over the row's pixels of the hinge of the squared distance
    to the mean the pixel's label selects. -/
theorem region1_arr (V : (c : Dev nD) → (b : Ref sig .tc) → Buf (Elt Ideal) ((c : Thread nD τ).loc b)) (c : Dev nD) :
    (Gen.dat1 (F := Ideal) V c).arrAt 3 cfg1.N = Cert.Spec.dist1 (V c main_v0) (V c main_v1) (V c main_v8) :=
  (dat1 V c).arrAt_eq_of_cover 3 (Cert.Spec.dist1 (xarr V c) (larr V c) (marr V c)) (flushed_eq V c) (cover c)

end Cert.KernelIdeal.R1

end
-- ==== Proof.HostFold.lean ====
/-
  The kernel program's result buffer, read back through the segments of @main: the tail after the second call applied
  to the second call's output and the factor, the second call's output as the distance sums of the flattened arguments
  and the class means, the means and the factor as the host operations between the calls applied to the first call's
  output, and that output as the per-class sums and counts of the flattened arguments.
-/
import proofs.«425639_j46677704573718_2_alg».proof.Proof.Gen.KernelIdeal.Frame
import proofs.«425639_j46677704573718_2_alg».proof.Proof.HostDefs
import Idealize.ShloMosaic.Lib.StableHlo.Run

noncomputable section

namespace Cert.KernelIdeal.HostV

open Idealize.ShloMosaic Idealize.ShloMosaic.TcCoe Cert.KernelIdeal Cert.KernelIdeal.Facts₀
open Idealize.ShloMosaic.StableHlo (after_cons after_nil)

variable (m : (ℓ : Loc nD τ sig) → Buf (Elt Ideal) ℓ) (ρ : Dev nD → PrngReg) (c : Dev nD)

/-- At the first call's entry the flattened embedding is the reshape of the first argument. -/
theorem W1_v0 : Gen.W1 (F := Ideal) m ρ c (Proc.devRef .tc main_v0) = hostX (m ((c : Thread nD τ).loc main_arg0)) := by
  show StableHlo.after Gen.hostOps0 (Gen.W0 m ρ c) (Proc.devRef .tc main_v0) = _
  after_results
  rfl

/-- At the first call's entry the flattened labels are the reshape of the second argument. -/
theorem W1_v1 : Gen.W1 (F := Ideal) m ρ c (Proc.devRef .tc main_v1) = hostL (m ((c : Thread nD τ).loc main_arg1)) := by
  show StableHlo.after Gen.hostOps0 (Gen.W0 m ρ c) (Proc.devRef .tc main_v1) = _
  after_results
  rfl

/-- The first call reads the flattened arguments and leaves them as they were. -/
theorem W2_v0 : Gen.W2 (F := Ideal) m ρ c (Proc.devRef .tc main_v0) = hostX (m ((c : Thread nD τ).loc main_arg0)) :=
  (Gen.W2_arr m ρ c 0).trans (W1_v0 m ρ c)
theorem W2_v1 : Gen.W2 (F := Ideal) m ρ c (Proc.devRef .tc main_v1) = hostL (m ((c : Thread nD τ).loc main_arg1)) :=
  (Gen.W2_arr m ρ c 1).trans (W1_v1 m ρ c)

section Regions

variable
  (h0 : ∀ (V : (c : Dev nD) → (b : Ref sig .tc) → Buf (Elt Ideal) ((c : Thread nD τ).loc b)) (c : Dev nD),
    (Gen.dat0 (F := Ideal) V c).arrAt 2 cfg0.N = Cert.Spec.sums17 (V c main_v0) (V c main_v1))
  (h1 : ∀ (V : (c : Dev nD) → (b : Ref sig .tc) → Buf (Elt Ideal) ((c : Thread nD τ).loc b)) (c : Dev nD),
    (Gen.dat1 (F := Ideal) V c).arrAt 3 cfg1.N = Cert.Spec.dist1 (V c main_v0) (V c main_v1) (V c main_v8))

/-- The per-class sums and counts of the flattened arguments. -/
abbrev S17 : FVec Ideal S4x17x8 .f32 :=
  Cert.Spec.sums17 (hostX (m ((c : Thread nD τ).loc main_arg0))) (hostL (m ((c : Thread nD τ).loc main_arg1)))

include h0 in
/-- The first call leaves the per-class sums and counts of the flattened arguments. -/
theorem W2_v2 : Gen.W2 (F := Ideal) m ρ c (Proc.devRef .tc main_v2) = S17 m c := by
  refine (Gen.W2_arr m ρ c 2).trans ((h0 (Gen.V1 m ρ) c).trans ?_)
  show Cert.Spec.sums17 (Gen.W1 m ρ c (Proc.devRef .tc main_v0)) (Gen.W1 m ρ c (Proc.devRef .tc main_v1)) = _
  rw [W1_v0, W1_v1]

/-- The host operations between the calls write neither flattened argument. -/
theorem W3_v0 : Gen.W3 (F := Ideal) m ρ c (Proc.devRef .tc main_v0) = hostX (m ((c : Thread nD τ).loc main_arg0)) := by
  refine Eq.trans ?_ (W2_v0 m ρ c)
  show StableHlo.after Gen.hostOps1 (Gen.W2 m ρ c) (Proc.devRef .tc main_v0) = _
  after_results
theorem W3_v1 : Gen.W3 (F := Ideal) m ρ c (Proc.devRef .tc main_v1) = hostL (m ((c : Thread nD τ).loc main_arg1)) := by
  refine Eq.trans ?_ (W2_v1 m ρ c)
  show StableHlo.after Gen.hostOps1 (Gen.W2 m ρ c) (Proc.devRef .tc main_v1) = _
  after_results

/-- The class means, as the host operations between the calls compute them from the first call's output. -/
theorem W3_v8_of : Gen.W3 (F := Ideal) m ρ c (Proc.devRef .tc main_v8) = hostMeans (Gen.W2 m ρ c (Proc.devRef .tc main_v2)) := by
  show StableHlo.after Gen.hostOps1 (Gen.W2 m ρ c) (Proc.devRef .tc main_v8) = _
  after_results
  rfl
/-- The factor, as the host operations between the calls compute it from the first call's output. -/
theorem W3_v13_of : Gen.W3 (F := Ideal) m ρ c (Proc.devRef .tc main_v13) = hostFac (Gen.W2 m ρ c (Proc.devRef .tc main_v2)) := by
  show StableHlo.after Gen.hostOps1 (Gen.W2 m ρ c) (Proc.devRef .tc main_v13) = _
  after_results
  rfl

include h0 in
/-- The class means of the flattened arguments at the second call's entry. -/
theorem W3_v8 : Gen.W3 (F := Ideal) m ρ c (Proc.devRef .tc main_v8) = hostMeans (S17 m c) := by
  rw [W3_v8_of, W2_v2 m ρ c h0]
include h0 in
/-- The factor of the flattened arguments at the second call's entry. -/
theorem W3_v13 : Gen.W3 (F := Ideal) m ρ c (Proc.devRef .tc main_v13) = hostFac (S17 m c) := by
  rw [W3_v13_of, W2_v2 m ρ c h0]

include h0 h1 in
/-- The second call leaves the distance sums of the flattened arguments against the class means. -/
theorem W4_v14 : Gen.W4 (F := Ideal) m ρ c (Proc.devRef .tc main_v14)
    = Cert.Spec.dist1 (hostX (m ((c : Thread nD τ).loc main_arg0))) (hostL (m ((c : Thread nD τ).loc main_arg1)))
        (hostMeans (S17 m c)) := by
  refine (Gen.W4_arr m ρ c 3).trans ((h1 (Gen.V3 m ρ) c).trans ?_)
  show Cert.Spec.dist1 (Gen.W3 m ρ c (Proc.devRef .tc main_v0)) (Gen.W3 m ρ c (Proc.devRef .tc main_v1))
    (Gen.W3 m ρ c (Proc.devRef .tc main_v8)) = _
  rw [W3_v0, W3_v1, W3_v8 m ρ c h0]

include h0 in
/-- The second call does not write the factor. -/
theorem W4_v13 : Gen.W4 (F := Ideal) m ρ c (Proc.devRef .tc main_v13) = hostFac (S17 m c) :=
  (Gen.W4_of_ne m ρ c main_v13 (by decide)).trans (W3_v13 m ρ c h0)

/-- The result buffer, as the tail computes it from the second call's output and the factor. -/
theorem W5_v18_of : Gen.W5 (F := Ideal) m ρ c (Proc.devRef .tc main_v18)
    = hostTail (Gen.W4 m ρ c (Proc.devRef .tc main_v14)) (Gen.W4 m ρ c (Proc.devRef .tc main_v13)) := by
  show StableHlo.after Gen.hostOps2 (Gen.W4 m ρ c) (Proc.devRef .tc main_v18) = _
  after_results
  rfl

end Regions

/-- The kernel program's result buffer at the last segment boundary is `kernelTerm` of its two arguments, given what
    the two calls leave in their outputs as functions of the arrays they read. -/
theorem W5_result (m : (ℓ : Loc nD τ sig) → Buf (Elt Ideal) ℓ) (ρ : Dev nD → PrngReg) (c : Dev nD)
    (h0 : ∀ (V : (c : Dev nD) → (b : Ref sig .tc) → Buf (Elt Ideal) ((c : Thread nD τ).loc b)) (c : Dev nD),
      (Gen.dat0 (F := Ideal) V c).arrAt 2 cfg0.N = Cert.Spec.sums17 (V c main_v0) (V c main_v1))
    (h1 : ∀ (V : (c : Dev nD) → (b : Ref sig .tc) → Buf (Elt Ideal) ((c : Thread nD τ).loc b)) (c : Dev nD),
      (Gen.dat1 (F := Ideal) V c).arrAt 3 cfg1.N = Cert.Spec.dist1 (V c main_v0) (V c main_v1) (V c main_v8)) :
    Gen.W5 (F := Ideal) m ρ c (Proc.devRef .tc main_v18)
      = kernelTerm (m ((c : Thread nD τ).loc main_arg0)) (m ((c : Thread nD τ).loc main_arg1)) := by
  rw [W5_v18_of, W4_v14 m ρ c h0 h1, W4_v13 m ρ c h0]
  rfl

end Cert.KernelIdeal.HostV

end
-- ==== Proof.HostRead.lean ====
/-
  The host side of the kernel program read at an index: each host array of `HostDefs.lean` at explicit coordinates,
  and the program's one-term result as the coordinate formula `Cert.Spec.kernelVal`.
-/
import proofs.«425639_j46677704573718_2_alg».proof.Proof.HostDefs
import Idealize.ShloMosaic.Lib.Pipeline.Value
import Idealize.ShloMosaic.Lib.ValueIdx
import Idealize.ShloMosaic.Lib.ValueIdxRank1
import Idealize.ShloMosaic.Lib.ValueLayout
import Idealize.ShloMosaic.PureOps.Ideal.Laws

noncomputable section

namespace Cert.KernelIdeal.HostV

open Idealize.ShloMosaic Idealize.ShloMosaic.ValueIdx Cert.KernelIdeal Cert.KernelIdeal.Facts₀

/-- The flattened embedding at (b, f, n) is the embedding at row `n / 512`, column `n % 512`. -/
theorem hostX_apply (A : FVec Ideal S4x16x512x512 .f32) (b : Fin 4) (f : Fin 16) (n : Fin 262144) :
    hostX A (ix3 b f n) = Cert.Spec.Xof A b f n := by
  unfold hostX Cert.Spec.Xof
  refine shapeCast_apply A shapeCasts_S4x16x512x512_S4x16x262144 (ix3 b f n) _ ?_
  rw [Shape.rowMajor_val_four, Shape.rowMajor_val_three]
  have hb := b.isLt; have hf := f.isLt; have hn := n.isLt
  show ((b.val * 16 + f.val) * 512 + n.val / 512) * 512 + n.val % 512 = (b.val * 16 + f.val) * 262144 + n.val
  omega

/-- The flattened labels at (b, 0, n) are the labels at row `n / 512`, column `n % 512`. -/
theorem hostL_apply (T : IVec S4x512x512 32) (b : Fin 4) (n : Fin 262144) :
    hostL T (ix3 b (0 : Fin 1) n) = Cert.Spec.Lof T b n := by
  unfold hostL Cert.Spec.Lof
  refine shapeCast_apply T shapeCasts_S4x512x512_S4x1x262144 (ix3 b (0 : Fin 1) n) _ ?_
  rw [Shape.rowMajor_val_three, Shape.rowMajor_val_three]
  have hb := b.isLt; have hn := n.isLt
  show (b.val * 512 + n.val / 512) * 512 + n.val % 512 = (b.val * 1 + 0) * 262144 + n.val
  omega

/-- The class counts at (b, k) are row 16 of the first call's output. -/
theorem hostCnt_apply (S : FVec Ideal S4x17x8 .f32) (b : Fin 4) (k : Fin 8) :
    hostCnt S (ix2 b k) = S (ix3 b (16 : Fin 17) k) := by
  unfold hostCnt
  refine (shapeCast_apply _ shapeCasts_S4x1x8_S4x8 (ix2 b k) (ix3 b (0 : Fin 1) k) ?_).trans ?_
  · rw [Shape.rowMajor_val_three, Shape.rowMajor_val_two]
    show (b.val * 1 + 0) * 8 + k.val = b.val * 8 + k.val
    omega
  · exact extractStridedSlice_apply _ S slices_S4x17x8_S4x1x8_0_16_0 _ (ix3 b (16 : Fin 17) k) (fun a => match a with
      | ⟨0, _⟩ => by show b.val = 0 + b.val; omega
      | ⟨1, _⟩ => by show 16 = 16 + 0; rfl
      | ⟨2, _⟩ => by show k.val = 0 + k.val; omega)

/-- The class means at (b, f, k): row `f` of the first call's output over its row 16. -/
theorem hostMeans_apply (S : FVec Ideal S4x17x8 .f32) (b : Fin 4) (f : Fin 16) (k : Fin 8) :
    hostMeans S (ix3 b f k)
      = Ideal.div (S (ix3 b (⟨f.val, by have := f.isLt; omega⟩ : Fin 17) k)) (S (ix3 b (16 : Fin 17) k)) := by
  unfold hostMeans
  show Ideal.div _ _ = Ideal.div _ _
  congr 1
  · exact extractStridedSlice_apply _ S slices_S4x17x8_S4x16x8_0_0_0 _ (ix3 b (⟨f.val, by have := f.isLt; omega⟩ : Fin 17) k)
      (fun a => match a with
      | ⟨0, _⟩ => by show b.val = 0 + b.val; omega
      | ⟨1, _⟩ => by show f.val = 0 + f.val; omega
      | ⟨2, _⟩ => by show k.val = 0 + k.val; omega)
  · refine (broadcastInDim_apply _ bcast_S4x1x8_S4x16x8_0_1_2 _ (ix3 b f k) (ix3 b (0 : Fin 1) k) (fun a => match a with
      | ⟨0, _⟩ => by show b.val = if (4 : Nat) = 1 then 0 else b.val; rw [if_neg (by decide)]
      | ⟨1, _⟩ => by show 0 = if (1 : Nat) = 1 then 0 else f.val; rw [if_pos rfl]
      | ⟨2, _⟩ => by show k.val = if (8 : Nat) = 1 then 0 else k.val; rw [if_neg (by decide)])).trans ?_
    refine (broadcastInDim_apply _ bcast_S4x8_S4x1x8_0_2 _ (ix3 b (0 : Fin 1) k) (ix2 b k) (fun a => match a with
      | ⟨0, _⟩ => by show b.val = if (4 : Nat) = 1 then 0 else b.val; rw [if_neg (by decide)]
      | ⟨1, _⟩ => by show k.val = if (8 : Nat) = 1 then 0 else k.val; rw [if_neg (by decide)])).trans ?_
    exact hostCnt_apply S b k

/-- The factor at `b`: the sum over the classes of the reciprocal counts (from the zero word), over eight. -/
theorem hostFac_apply (S : FVec Ideal S4x17x8 .f32) (b : Fin 4) :
    hostFac S (ix1 b)
      = Ideal.div (Ideal.ofBits .f32 0x00000000#32
          + ∑ k : Fin 8, Ideal.div (Ideal.ofBits .f32 0x3F800000#32) (S (ix3 b (16 : Fin 17) k)))
        (Ideal.ofBits .f32 0x41000000#32) := by
  unfold hostFac
  show Ideal.div _ _ = Ideal.div _ _
  congr 1
  show Ideal.hostReduceAdd reducesTo_S4x8_S4_d1 _ _ (ix1 b) = _
  rw [Ideal.hostReduceAdd_single reducesTo_S4x8_S4_d1 (by decide)]
  refine congrArg₂ (· + ·) rfl (Finset.sum_congr rfl fun k _ => ?_)
  show Ideal.div _ _ = Ideal.div _ _
  congr 1
  refine Eq.trans (congrArg (hostCnt S) (funext fun a => Fin.ext ?_)) (hostCnt_apply S b k)
  match a with
  | ⟨0, _⟩ => rfl
  | ⟨1, _⟩ => rfl

/-- The tail at its one index: one times the sum over the batch (from the zero word) of distance times factor. -/
theorem hostTail_apply (D : FVec Ideal S4x1x1 .f32) (Fc : FVec Ideal S4 .f32) (i : S_.Idx) :
    hostTail D Fc i
      = Ideal.ofBits .f32 0x3F800000#32
        * (Ideal.ofBits .f32 0x00000000#32 + ∑ b : Fin 4, D (ix3 b (0 : Fin 1) (0 : Fin 1)) * Fc (ix1 b)) := by
  unfold hostTail
  show _ * _ = _ * _
  congr 1
  show Ideal.hostReduceAdd reducesTo_S4_S_d0 _ _ i = _
  rw [Ideal.hostReduceAdd_total reducesTo_S4_S_d0 (fun a => a.elim0)]
  refine congrArg₂ (· + ·) rfl ?_
  refine (Fintype.sum_equiv idxEquiv1 _ _ fun j => ?_)
  show _ * _ = _ * _
  congr 1
  · refine shapeCast_apply D shapeCasts_S4x1x1_S4 j (ix3 (j 0) (0 : Fin 1) (0 : Fin 1)) ?_
    rw [Shape.rowMajor_val_three, Shape.rowMajor_val_one]
    show ((j 0).val * 1 + 0) * 1 + 0 = (j 0).val
    omega
  · exact congrArg Fc (eq_ix1 j)

/-- Rows 0…15 of the first call's output are the per-class sums … -/
theorem sums17_lt (X : FVec Ideal S4x16x262144 .f32) (L : IVec S4x1x262144 32) (b : Fin 4) (f : Fin 16) (k : Fin 8) :
    Cert.Spec.sums17 X L (ix3 b (⟨f.val, by have := f.isLt; omega⟩ : Fin 17) k)
      = Cert.Spec.sums (fun b f n => X (ix3 b f n)) (fun b n => L (ix3 b (0 : Fin 1) n)) b f k := by
  unfold Cert.Spec.sums17
  exact dif_pos f.isLt

/-- … and row 16 the per-class counts. -/
theorem sums17_16 (X : FVec Ideal S4x16x262144 .f32) (L : IVec S4x1x262144 32) (b : Fin 4) (k : Fin 8) :
    Cert.Spec.sums17 X L (ix3 b (16 : Fin 17) k) = Cert.Spec.cnt (fun b n => L (ix3 b (0 : Fin 1) n)) b k := by
  unfold Cert.Spec.sums17
  exact dif_neg (Nat.lt_irrefl 16)

/-- The flattened arguments as coordinate functions are `Xof` and `Lof`. -/
theorem hostX_fun (A : FVec Ideal S4x16x512x512 .f32) :
    (fun (b : Fin 4) (f : Fin 16) (n : Fin 262144) => hostX A (ix3 b f n)) = Cert.Spec.Xof A :=
  funext fun b => funext fun f => funext fun n => hostX_apply A b f n
theorem hostL_fun (T : IVec S4x512x512 32) :
    (fun (b : Fin 4) (n : Fin 262144) => hostL T (ix3 b (0 : Fin 1) n)) = Cert.Spec.Lof T :=
  funext fun b => funext fun n => hostL_apply T b n

/-- The class means of the first call's output are the class means of the coordinate formula. -/
theorem means_apply (A : FVec Ideal S4x16x512x512 .f32) (T : IVec S4x512x512 32) (b : Fin 4) (f : Fin 16) (k : Fin 8) :
    hostMeans (Cert.Spec.sums17 (hostX A) (hostL T)) (ix3 b f k) = Cert.Spec.mean (Cert.Spec.Xof A) (Cert.Spec.Lof T) b f k := by
  rw [hostMeans_apply, sums17_lt, sums17_16, hostX_fun, hostL_fun]
  rfl

/-- The factor of the first call's output is `(Σₖ 1 / cnt) / 8` of the coordinate formula. -/
theorem fac_apply (A : FVec Ideal S4x16x512x512 .f32) (T : IVec S4x512x512 32) (b : Fin 4) :
    hostFac (Cert.Spec.sums17 (hostX A) (hostL T)) (ix1 b)
      = Ideal.div (Cert.Spec.rcpSum (Cert.Spec.Lof T) b) (Ideal.ofBits .f32 0x41000000#32) := by
  rw [hostFac_apply, Ideal.ofBits_zero_f32, zero_add]
  have h : ∀ k : Fin 8, Cert.Spec.sums17 (hostX A) (hostL T) (ix3 b (16 : Fin 17) k)
      = Cert.Spec.cnt (Cert.Spec.Lof T) b k := fun k => by rw [sums17_16, hostL_fun]
  simp only [h]
  rfl

/-- The second call's output at batch `b` is the per-batch hinge sum of the coordinate formula. -/
theorem dist_apply (A : FVec Ideal S4x16x512x512 .f32) (T : IVec S4x512x512 32) (b : Fin 4) :
    Cert.Spec.dist1 (hostX A) (hostL T) (hostMeans (Cert.Spec.sums17 (hostX A) (hostL T))) (ix3 b (0 : Fin 1) (0 : Fin 1))
      = Cert.Spec.distK (Cert.Spec.Xof A) (Cert.Spec.Lof T) b := by
  unfold Cert.Spec.dist1 Cert.Spec.distK Cert.Spec.pixK Cert.Spec.selMean
  refine Finset.sum_congr rfl fun n _ => congrArg Cert.Spec.hinge (Finset.sum_congr rfl fun f _ => ?_)
  have e : (∑ k : Fin 8, hostMeans (Cert.Spec.sums17 (hostX A) (hostL T)) (ix3 b f k)
        * Cert.Spec.ind (hostL T (ix3 b (0 : Fin 1) n)) k) - hostX A (ix3 b f n)
      = (∑ k : Fin 8, Cert.Spec.mean (Cert.Spec.Xof A) (Cert.Spec.Lof T) b f k * Cert.Spec.ind (Cert.Spec.Lof T b n) k)
        - Cert.Spec.Xof A b f n := by
    rw [hostX_apply, hostL_apply]
    exact congrArg (· - _) (Finset.sum_congr rfl fun k _ => by rw [means_apply])
  exact congrArg₂ (· * ·) e e

/-- The kernel program's one-term result, read at its one index, is the coordinate formula. -/
theorem kernelTerm_eq (A : FVec Ideal S4x16x512x512 .f32) (T : IVec S4x512x512 32) :
    kernelTerm A T = fun _ => Cert.Spec.kernelVal (Cert.Spec.Xof A) (Cert.Spec.Lof T) := by
  funext i
  unfold kernelTerm Cert.Spec.kernelVal
  rw [hostTail_apply, Ideal.ofBits_zero_f32, zero_add]
  refine congrArg (_ * ·) (Finset.sum_congr rfl fun b _ => ?_)
  rw [dist_apply, fac_apply]

end Cert.KernelIdeal.HostV

end
-- ==== Proof.RefValue.lean ====
/-
  The reference's result stage as the coordinate formula.

  Each stage of the reference is read at explicit coordinates (batch b, feature f, pixel n, class k): the mask is the
  indicator, its pixel sum the class count, the contraction of the embedding against it the class sum, their quotient
  the mean, the masked squared difference summed over the features the argument of the hinge, and the sum of the hinges
  over pixels and classes, times the sum of the reciprocal counts, divided by eight and summed over the batch, the result.
-/
import proofs.«425639_j46677704573718_2_alg».proof.Proof.Gen.ReferenceIdeal.Read
import proofs.«425639_j46677704573718_2_alg».proof.Proof.Spec
import Idealize.ShloMosaic.Lib.Pipeline.Value
import Idealize.ShloMosaic.Lib.ValueIdx
import Idealize.ShloMosaic.PureOps.Ideal.Laws

noncomputable section

namespace Cert.ReferenceIdeal.RefV

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.Spec

/-- The flattened embedding at (b, f, n) is the argument at row n / 512, column n % 512. -/
theorem x_apply (x0 : (⟨S4x16x512x512, .f32⟩ : BufTy).Contents (Elt Ideal)) (b : Fin 4) (f : Fin 16) (n : Fin 262144) :
    val_main_v0 (F := Ideal) x0 (ix3 b f n) = Xof x0 b f n := by
  rw [val_main_v0_apply]
  unfold Xof
  refine congrArg x0 (funext fun a => Fin.ext ?_)
  have hb := b.isLt; have hf := f.isLt; have hn := n.isLt
  match a with
  | ⟨0, _⟩ => show ((b.val * 16 + f.val) * 262144 + n.val) / 4194304 = b.val; omega
  | ⟨1, _⟩ => show ((b.val * 16 + f.val) * 262144 + n.val) / 262144 % 16 = f.val; omega
  | ⟨2, _⟩ => show ((b.val * 16 + f.val) * 262144 + n.val) / 512 % 512 = n.val / 512; omega
  | ⟨3, _⟩ => show ((b.val * 16 + f.val) * 262144 + n.val) % 512 = n.val % 512; omega

/-- The flattened label at (b, n) is the argument at row n / 512, column n % 512. -/
theorem l_apply (x1 : (⟨S4x512x512, .i32⟩ : BufTy).Contents (Elt Ideal)) (b : Fin 4) (n : Fin 262144) :
    val_main_v1 (F := Ideal) x1 (ix2 b n) = Lof x1 b n := by
  rw [val_main_v1_apply]
  unfold Lof
  refine congrArg x1 (funext fun a => Fin.ext ?_)
  have hb := b.isLt; have hn := n.isLt
  match a with
  | ⟨0, _⟩ => show (b.val * 262144 + n.val) / 262144 = b.val; omega
  | ⟨1, _⟩ => show (b.val * 262144 + n.val) / 512 % 512 = n.val / 512; omega
  | ⟨2, _⟩ => show (b.val * 262144 + n.val) % 512 = n.val % 512; omega

/-- The mask at (b, n, k) is the indicator of "the label of pixel n is class k". -/
theorem mask_apply (x1 : (⟨S4x512x512, .i32⟩ : BufTy).Contents (Elt Ideal)) (b : Fin 4) (n : Fin 262144) (k : Fin 8) :
    val_main_v8 (F := Ideal) x1 (ix3 b n k) = ind (Lof x1 b n) k := by
  rw [val_main_v8_apply, val_main_v7_apply, val_main_v5_apply, val_main_v2_apply, val_main_v6_apply, val_main_v4_apply,
    val_main_v3_apply]
  have e1 : idx_main_v2 (idx_main_v5 (ix3 b n k)) = ix2 b n :=
    funext fun a => Fin.ext (by match a with | ⟨0, _⟩ => rfl | ⟨1, _⟩ => rfl)
  rw [e1, l_apply]
  show FloatOps.uitofp (F := Ideal) .f32 (IntOp.cmpi .eq (Lof x1 b n) (BitVec.ofNat 32 k.val)) = _
  unfold ind
  by_cases h : Lof x1 b n = BitVec.ofNat 32 k.val
  · rw [if_pos h, h]
    show (((IntOp.cmpi .eq (BitVec.ofNat 32 k.val) (BitVec.ofNat 32 k.val)).toNat : ℝ) : EReal) = 1
    simp [IntOp.cmpi]
  · rw [if_neg h]
    show (((IntOp.cmpi .eq (Lof x1 b n) (BitVec.ofNat 32 k.val)).toNat : ℝ) : EReal) = 0
    simp [IntOp.cmpi, h]

/-- The mask summed over the pixels is the class count. -/
theorem cnt_apply (x1 : (⟨S4x512x512, .i32⟩ : BufTy).Contents (Elt Ideal)) (b : Fin 4) (k : Fin 8) :
    val_main_v9 (F := Ideal) x1 (ix2 b k) = cnt (Lof x1) b k := by
  rw [val_main_v9_apply, val_main_cst_apply]
  show Ideal.ofBits .f32 0x00000000#32 + _ = _
  rw [Ideal.ofBits_zero_f32, zero_add]
  unfold cnt
  refine Finset.sum_congr rfl fun n _ => ?_
  have e : idx_main_v9 (ix2 b k) n = ix3 b n k :=
    funext fun a => Fin.ext (by match a with | ⟨0, _⟩ => rfl | ⟨1, _⟩ => rfl | ⟨2, _⟩ => rfl)
  rw [e, mask_apply]

/-- The embedding contracted against the mask over the pixels is the class sum. -/
theorem sums_apply (x0 : (⟨S4x16x512x512, .f32⟩ : BufTy).Contents (Elt Ideal))
    (x1 : (⟨S4x512x512, .i32⟩ : BufTy).Contents (Elt Ideal)) (b : Fin 4) (f : Fin 16) (k : Fin 8) :
    val_main_v10 (F := Ideal) x0 x1 (ix3 b f k) = sums (Xof x0) (Lof x1) b f k := by
  rw [val_main_v10_apply]
  unfold sums
  refine Finset.sum_congr rfl fun n _ => ?_
  have el : lidx_main_v10 (ix3 b f k) n = ix3 b f n :=
    funext fun a => Fin.ext (by match a with | ⟨0, _⟩ => rfl | ⟨1, _⟩ => rfl | ⟨2, _⟩ => rfl)
  have er : ridx_main_v10 (ix3 b f k) n = ix3 b n k :=
    funext fun a => Fin.ext (by match a with | ⟨0, _⟩ => rfl | ⟨1, _⟩ => rfl | ⟨2, _⟩ => rfl)
  rw [el, er, x_apply, mask_apply]

/-- The quotient of the class sum by the broadcast class count is the class mean. -/
theorem mean_apply (x0 : (⟨S4x16x512x512, .f32⟩ : BufTy).Contents (Elt Ideal))
    (x1 : (⟨S4x512x512, .i32⟩ : BufTy).Contents (Elt Ideal)) (b : Fin 4) (f : Fin 16) (k : Fin 8) :
    val_main_v13 (F := Ideal) x0 x1 (ix3 b f k) = mean (Xof x0) (Lof x1) b f k := by
  rw [val_main_v13_apply, val_main_v12_apply, val_main_v11_apply]
  have e : idx_main_v11 (idx_main_v12 (ix3 b f k)) = ix2 b k :=
    funext fun a => Fin.ext (by match a with | ⟨0, _⟩ => rfl | ⟨1, _⟩ => rfl)
  rw [e, cnt_apply, sums_apply]
  rfl

/-- The masked difference to the class mean, squared and summed over the features. -/
theorem sq_apply (x0 : (⟨S4x16x512x512, .f32⟩ : BufTy).Contents (Elt Ideal))
    (x1 : (⟨S4x512x512, .i32⟩ : BufTy).Contents (Elt Ideal)) (b : Fin 4) (n : Fin 262144) (k : Fin 8) :
    val_main_v23 (F := Ideal) x0 x1 (ix3 b n k)
      = ∑ f : Fin 16, ((mean (Xof x0) (Lof x1) b f k - Xof x0 b f n) * ind (Lof x1 b n) k)
          * ((mean (Xof x0) (Lof x1) b f k - Xof x0 b f n) * ind (Lof x1 b n) k) := by
  rw [val_main_v23_apply, val_main_cst_0_apply]
  show Ideal.ofBits .f32 0x00000000#32 + _ = _
  rw [Ideal.ofBits_zero_f32, zero_add]
  refine Finset.sum_congr rfl fun f _ => ?_
  have e21 : val_main_v21 (F := Ideal) x0 x1 (idx_main_v23 (ix3 b n k) f)
      = (mean (Xof x0) (Lof x1) b f k - Xof x0 b f n) * ind (Lof x1 b n) k := by
    rw [val_main_v21_apply, val_main_v18_apply, val_main_v16_apply, val_main_v14_apply, val_main_v17_apply,
      val_main_v15_apply, val_main_v20_apply, val_main_v19_apply]
    have e1 : idx_main_v14 (idx_main_v16 (idx_main_v23 (ix3 b n k) f)) = ix3 b f k :=
      funext fun a => Fin.ext (by match a with | ⟨0, _⟩ => rfl | ⟨1, _⟩ => rfl | ⟨2, _⟩ => rfl)
    have e2 : idx_main_v15 (idx_main_v17 (idx_main_v23 (ix3 b n k) f)) = ix3 b f n :=
      funext fun a => Fin.ext (by match a with | ⟨0, _⟩ => rfl | ⟨1, _⟩ => rfl | ⟨2, _⟩ => rfl)
    have e3 : idx_main_v19 (idx_main_v20 (idx_main_v23 (ix3 b n k) f)) = ix3 b n k :=
      funext fun a => Fin.ext (by match a with | ⟨0, _⟩ => rfl | ⟨1, _⟩ => rfl | ⟨2, _⟩ => rfl)
    rw [e1, e2, e3, mean_apply, x_apply, mask_apply]
    rfl
  rw [val_main_v22_apply, e21]
  rfl

/-- The guarded square root, the shift by one half, the clip and the square are the hinge of the summed squares. -/
theorem hinge_apply (x0 : (⟨S4x16x512x512, .f32⟩ : BufTy).Contents (Elt Ideal))
    (x1 : (⟨S4x512x512, .i32⟩ : BufTy).Contents (Elt Ideal)) (i : S4x262144x8.Idx) :
    val_main_v34 (F := Ideal) x0 x1 i = hinge (val_main_v23 (F := Ideal) x0 x1 i) := by
  rw [val_main_v34_apply, val_main_v33_apply, val_main_call2_v4_apply, val_main_call2_v3_apply, val_main_cst_7_apply,
    val_main_call2_v2_apply, val_main_call2_v1_apply, val_main_call2_v0_apply, val_main_cst_6_apply,
    val_main_v32_apply, val_main_v31_apply, val_main_cst_5_apply, val_main_v30_apply, val_main_v25_apply,
    val_main_v24_apply, val_main_cst_1_apply, val_main_call1_v1_apply, val_main_call1_v0_apply, val_main_cst_4_apply,
    val_main_v29_apply, val_main_v28_apply, val_main_v27_apply, val_main_v26_apply, val_main_cst_2_apply,
    val_main_call0_v1_apply, val_main_call0_v0_apply, val_main_cst_3_apply]
  unfold hinge
  simp only [Ideal.ofBits_def, Ideal.mulf_def, Ideal.minimumf_def, Ideal.maximumf_def, Ideal.subf_def,
    Ideal.hostUnary_sqrt_def, Ideal.cmpf_def]

/-- The hinge stage at (b, n, k). -/
theorem pix_apply (x0 : (⟨S4x16x512x512, .f32⟩ : BufTy).Contents (Elt Ideal))
    (x1 : (⟨S4x512x512, .i32⟩ : BufTy).Contents (Elt Ideal)) (b : Fin 4) (n : Fin 262144) (k : Fin 8) :
    val_main_v34 (F := Ideal) x0 x1 (ix3 b n k) = pixR (Xof x0) (Lof x1) b n k := by
  rw [hinge_apply, sq_apply]
  rfl

/-- The indices of [4, 262144, 8] whose kept coordinate is the batch b are the (b, n, k): the sum over them is the double
    sum over the pixels and the classes. -/
theorem sum_drop12 (y : S4x262144x8.Idx → EReal) (b : Fin 4) :
    ∑ i ∈ Finset.univ.filter (fun i : S4x262144x8.Idx => reducesTo_S4x262144x8_S4_d1_2.drop i = ix1 b), y i
      = ∑ n : Fin 262144, ∑ k : Fin 8, y (ix3 b n k) := by
  have hd : ∀ i : S4x262144x8.Idx, ((reducesTo_S4x262144x8_S4_d1_2.drop i) 0 : Nat) = (i 0).val := fun i =>
    Shape.ReducesTo.drop_apply_val_of_eq reducesTo_S4x262144x8_S4_d1_2 i 0 0
  have key : ∀ i : S4x262144x8.Idx, reducesTo_S4x262144x8_S4_d1_2.drop i = ix1 b →
      ix3 b (⟨(i 1).val, (i 1).isLt⟩ : Fin 262144) (⟨(i 2).val, (i 2).isLt⟩ : Fin 8) = i := by
    intro i hi
    have h0 : (i 0).val = b.val := by rw [← hd i, hi]
    funext a
    match a with
    | ⟨0, _⟩ => exact Fin.ext h0.symm
    | ⟨1, _⟩ => rfl
    | ⟨2, _⟩ => rfl
  refine (Finset.sum_bij' (t := (Finset.univ : Finset (Fin 262144 × Fin 8))) (g := fun p => y (ix3 b p.1 p.2))
    (fun i _ => ((⟨(i 1).val, (i 1).isLt⟩ : Fin 262144), (⟨(i 2).val, (i 2).isLt⟩ : Fin 8)))
    (fun p _ => ix3 b p.1 p.2) ?_ ?_ ?_ ?_ ?_).trans (Fintype.sum_prod_type' (fun n k => y (ix3 b n k)))
  · intro i _; simp only [Finset.mem_univ]
  · intro p _
    refine Finset.mem_filter.mpr ⟨Finset.mem_univ _, funext fun a => Fin.ext ?_⟩
    match a with
    | ⟨0, _⟩ => exact hd _
  · intro i hi; exact key i (Finset.mem_filter.mp hi).2
  · intro p _; rfl
  · intro i hi; exact congrArg y (key i (Finset.mem_filter.mp hi).2).symm

/-- The hinges summed over the pixels and the classes. -/
theorem dist_apply (x0 : (⟨S4x16x512x512, .f32⟩ : BufTy).Contents (Elt Ideal))
    (x1 : (⟨S4x512x512, .i32⟩ : BufTy).Contents (Elt Ideal)) (b : Fin 4) :
    val_main_v35 (F := Ideal) x0 x1 (ix1 b) = distR (Xof x0) (Lof x1) b := by
  unfold val_main_v35
  simp only [Host.reduceAdd, Ideal.hostReduceAdd_def]
  unfold Ideal.hostReduceAdd
  rw [val_main_cst_8_apply]
  show Ideal.ofBits .f32 0x00000000#32 + _ = _
  rw [Ideal.ofBits_zero_f32, zero_add, sum_drop12]
  unfold distR
  exact Finset.sum_congr rfl fun n _ => Finset.sum_congr rfl fun k _ => pix_apply x0 x1 b n k

/-- The reciprocals of the class counts summed over the classes. -/
theorem rcp_apply (x1 : (⟨S4x512x512, .i32⟩ : BufTy).Contents (Elt Ideal)) (b : Fin 4) :
    val_main_v38 (F := Ideal) x1 (ix1 b) = rcpSum (Lof x1) b := by
  rw [val_main_v38_apply, val_main_cst_10_apply]
  show Ideal.ofBits .f32 0x00000000#32 + _ = _
  rw [Ideal.ofBits_zero_f32, zero_add]
  unfold rcpSum
  refine Finset.sum_congr rfl fun k _ => ?_
  have e : idx_main_v38 (ix1 b) k = ix2 b k :=
    funext fun a => Fin.ext (by match a with | ⟨0, _⟩ => rfl | ⟨1, _⟩ => rfl)
  rw [e, val_main_v37_apply, val_main_v36_apply, val_main_cst_9_apply, cnt_apply]
  rfl

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The batch term: the hinge total times the reciprocal-count sum, divided by eight. -/
theorem term_apply (x0 : (⟨S4x16x512x512, .f32⟩ : BufTy).Contents (Elt Ideal))
    (x1 : (⟨S4x512x512, .i32⟩ : BufTy).Contents (Elt Ideal)) (b : Fin 4) :
    val_main_v41 (F := Ideal) x0 x1 (ix1 b)
      = Ideal.div (distR (Xof x0) (Lof x1) b * rcpSum (Lof x1) b) (Ideal.ofBits .f32 0x41000000#32) := by
  rw [val_main_v41_apply, val_main_v39_apply, val_main_v40_apply, val_main_cst_11_apply, dist_apply, rcp_apply]
  rfl

/-- The reference's result stage is the coordinate formula. -/
theorem ref_value (x0 : (⟨S4x16x512x512, .f32⟩ : BufTy).Contents (Elt Ideal))
    (x1 : (⟨S4x512x512, .i32⟩ : BufTy).Contents (Elt Ideal)) :
    Cert.ReferenceIdeal.Read.val_main_v43 (F := Ideal) x0 x1
      = fun _ => Cert.Spec.refVal (Cert.Spec.Xof x0) (Cert.Spec.Lof x1) := by
  funext i
  rw [val_main_v43_apply, val_main_cst_13_apply, val_main_v42_apply, val_main_cst_12_apply]
  show Ideal.ofBits .f32 0x3F800000#32 * (Ideal.ofBits .f32 0x00000000#32 + _) = _
  rw [Ideal.ofBits_zero_f32, zero_add, sum_idx1]
  unfold refVal
  exact congrArg (Ideal.ofBits .f32 0x3F800000#32 * ·) (Finset.sum_congr rfl fun b _ => term_apply x0 x1 b)

end Cert.ReferenceIdeal.RefV

end
-- ==== Proof.Algebra.lean ====
/-
  The kernel's total equals the reference's total when every label is one of the eight classes.

  Fix a batch row.  A pixel whose label is class `k₀` has indicator one at `k₀` and zero at the seven other classes
  (the 32-bit words of two classes below eight are equal only when the classes are).  Hence the indicator-weighted sum
  of the class means is the mean of class `k₀`; the reference's masked difference at `k₀` is the kernel's difference,
  and at every other class it is zero, whose hinge is zero.  So the reference's sum over (pixel, class) collapses to
  the kernel's sum over pixels.  Only `x · 1 = x`, `x · 0 = 0`, and associativity of the product are used, which hold
  for every extended real, so an empty class (whose mean is a quotient by zero) needs no separate treatment.  The
  final division by eight is a product with one eighth on both sides.
-/
import proofs.«425639_j46677704573718_2_alg».proof.Proof.Spec
import Mathlib.Data.EReal.Basic
import Mathlib.Data.EReal.Operations
import Mathlib.Data.EReal.Inv

noncomputable section

namespace Cert.Spec

open Idealize.ShloMosaic Idealize.ShloMosaic.ValueIdx

/-! ## The literals, evaluated once -/

/-- The word `0x3F000000` is one half. -/
theorem half_eq : Ideal.ofBits .f32 0x3F000000#32 = ((1/2 : ℝ) : EReal) := by
  simp [Ideal.ofBits, Ideal.ieee, -EReal.coe_mul]; norm_num

/-- The word `0x47C35000` is `10⁵`. -/
theorem big_eq : Ideal.ofBits .f32 0x47C35000#32 = ((100000 : ℝ) : EReal) := by
  simp [Ideal.ofBits, Ideal.ieee, -EReal.coe_mul]; norm_num

/-- The word `0x41000000` is eight. -/
theorem eight_eq : Ideal.ofBits .f32 0x41000000#32 = ((8 : ℝ) : EReal) := by
  simp [Ideal.ofBits, Ideal.ieee, -EReal.coe_mul]; norm_num

/-- Nothing is strictly greater than itself. -/
theorem cmp_ogt_self (x : EReal) : Ideal.cmp .ogt x x = 0#1 := by
  simp [Ideal.cmp]

/-- The hinge of zero: the guarded root is zero, `0 − ½ < 0` clips to zero, and `0 · 0 = 0`. -/
theorem hinge_zero : hinge 0 = 0 := by
  unfold hinge
  simp only [Ideal.ofBits_zero_f32, cmp_ogt_self, select_zero, half_eq, big_eq]
  have h1 : (0 : EReal) - ((1/2 : ℝ) : EReal) = ((-(1/2) : ℝ) : EReal) := by
    rw [← EReal.coe_zero, ← EReal.coe_sub]; norm_num
  rw [h1]
  have h2 : max (0 : EReal) ((-(1/2) : ℝ) : EReal) = 0 := by
    apply max_eq_left
    rw [← EReal.coe_zero, EReal.coe_le_coe_iff]; norm_num
  rw [h2]
  have h3 : min ((100000 : ℝ) : EReal) 0 = 0 := by
    apply min_eq_right
    rw [← EReal.coe_zero, EReal.coe_le_coe_iff]; norm_num
  rw [h3, mul_zero]

/-! ## The indicator of a labelled pixel -/

/-- Two classes below eight have the same 32-bit word only when they are the same class. -/
theorem ofNat_inj8 (k₀ k : Fin 8) : BitVec.ofNat 32 k₀.val = BitVec.ofNat 32 k.val ↔ k₀ = k := by
  constructor
  · intro h
    have h' := congrArg BitVec.toNat h
    have h1 := k.isLt
    have h2 := k₀.isLt
    rw [BitVec.toNat_ofNat, BitVec.toNat_ofNat, Nat.mod_eq_of_lt (by omega), Nat.mod_eq_of_lt (by omega)] at h'
    exact Fin.ext h'
  · rintro rfl; rfl

/-- A pixel labelled `k₀` has indicator one at `k₀` and zero elsewhere. -/
theorem ind_of (l : BitVec 32) (k₀ k : Fin 8) (h : l = BitVec.ofNat 32 k₀.val) :
    ind l k = if k = k₀ then 1 else 0 := by
  unfold ind
  rw [h]
  by_cases hk : k = k₀
  · rw [if_pos hk, if_pos (by rw [hk])]
  · rw [if_neg hk, if_neg (fun e => hk ((ofNat_inj8 k₀ k).mp e).symm)]

section Collapse

variable (X : Fin 4 → Fin 16 → Fin 262144 → EReal) (L : Fin 4 → Fin 262144 → BitVec 32)

/-- The indicator-weighted sum of the class means is the mean of the pixel's own class. -/
theorem selMean_eq (b : Fin 4) (f : Fin 16) (n : Fin 262144) (k₀ : Fin 8) (h : L b n = BitVec.ofNat 32 k₀.val) :
    selMean X L b f n = mean X L b f k₀ := by
  unfold selMean
  rw [Finset.sum_eq_single k₀]
  · rw [ind_of _ k₀ k₀ h, if_pos rfl, mul_one]
  · intro k _ hk
    rw [ind_of _ k₀ k h, if_neg hk, mul_zero]
  · intro hk
    exact absurd (Finset.mem_univ k₀) hk

/-- At the pixel's own class the reference's term is the kernel's. -/
theorem pixR_self (b : Fin 4) (n : Fin 262144) (k₀ : Fin 8) (h : L b n = BitVec.ofNat 32 k₀.val) :
    pixR X L b n k₀ = pixK X L b n := by
  unfold pixR pixK
  refine congrArg hinge (Finset.sum_congr rfl fun f _ => ?_)
  rw [selMean_eq X L b f n k₀ h, ind_of _ k₀ k₀ h, if_pos rfl, mul_one]

/-- At any other class the masked difference is zero and the reference's term is `hinge 0 = 0`. -/
theorem pixR_other (b : Fin 4) (n : Fin 262144) (k₀ k : Fin 8) (h : L b n = BitVec.ofNat 32 k₀.val) (hk : k ≠ k₀) :
    pixR X L b n k = 0 := by
  unfold pixR
  rw [ind_of _ k₀ k h, if_neg hk]
  simp only [mul_zero]
  rw [Finset.sum_const_zero]
  exact hinge_zero

/-- The reference's sum over (pixel, class) is the kernel's sum over pixels. -/
theorem distR_eq (hL : ∀ b n, ∃ k : Fin 8, L b n = BitVec.ofNat 32 k.val) (b : Fin 4) :
    distR X L b = distK X L b := by
  unfold distR distK
  refine Finset.sum_congr rfl fun n _ => ?_
  obtain ⟨k₀, hk₀⟩ := hL b n
  rw [Finset.sum_eq_single k₀]
  · exact pixR_self X L b n k₀ hk₀
  · intro k _ hk
    exact pixR_other X L b n k₀ k hk₀ hk
  · intro hk
    exact absurd (Finset.mem_univ k₀) hk

end Collapse

/-- The two totals agree when every label is one of the eight classes. -/
theorem kernelVal_eq_refVal (X : Fin 4 → Fin 16 → Fin 262144 → EReal) (L : Fin 4 → Fin 262144 → BitVec 32)
    (hL : ∀ b n, ∃ k : Fin 8, L b n = BitVec.ofNat 32 k.val) :
    kernelVal X L = refVal X L := by
  unfold kernelVal refVal
  refine congrArg (fun t => Ideal.ofBits .f32 0x3F800000#32 * t) (Finset.sum_congr rfl fun b _ => ?_)
  have h8 : (8 : ℝ) ≠ 0 := by norm_num
  rw [distR_eq X L hL b, eight_eq, Ideal.div_coe h8, Ideal.div_coe h8, mul_assoc]

end Cert.Spec

end
-- ==== Proof.lean ====
/-
  The certificate's proof: a two-pass discriminative loss on the TensorCore against its jnp reference, equal over the
  extended reals when every label is one of the eight classes.

  The kernel.  Pass 1 walks each batch row's 262144 pixels in four tiles and accumulates, by two matrix products against
  the one-hot mask of the labels, the per-class sums of the 16 features and the per-class pixel counts into one [17, 8]
  block per batch row.  The host divides sums by counts (the class means) and forms `(Σₖ 1 / cntₖ) / 8`.  Pass 2 walks the
  tiles again: the same mask selects each pixel's own class mean (a product of the means with the mask), the squared
  distance to it is summed over the features, passed through `clip(√· − ½, 0, 10⁵)²` and accumulated over the row.  The
  host multiplies by the factor and sums the four rows.

  The reference builds the masked difference to EVERY class mean, a [4, 262144, 8] array of hinges, and sums it all.  A pixel
  whose label is class `k₀` has a zero difference at the seven other classes, whose hinge is zero; so the totals agree.
  A pixel whose label is none of the eight classes would be dropped by the reference and kept (against a zero mean) by the
  kernel: the precondition says labels lie in [0, 8), which is the reference's stated domain.

  The modules: `Spec` (the mathematics in coordinates), `Region0` / `Region1` (what each pass leaves in its output array,
  read off the generated frame's run and folded over the tiles), `HostDefs` / `HostFold` / `HostRead` (the host side: the
  result buffer at the end of the run as one term of the arguments, and that term in coordinates), `LaunchValue` (the
  launch with the result buffer in its post), `RefValue` (the reference's run in coordinates), `PreRange` (the
  precondition read at a label), `Algebra` (the two coordinate formulas agree).
-/
import proofs.«425639_j46677704573718_2_alg».proof.Defs
import proofs.«425639_j46677704573718_2_alg».proof.Proof.Gen.Kernel
import proofs.«425639_j46677704573718_2_alg».proof.Proof.Gen.Kernel.Frame
import proofs.«425639_j46677704573718_2_alg».proof.Proof.Gen.KernelIdeal
import proofs.«425639_j46677704573718_2_alg».proof.Proof.Gen.KernelIdeal.Frame
import proofs.«425639_j46677704573718_2_alg».proof.Proof.Gen.ReferenceIdeal
import proofs.«425639_j46677704573718_2_alg».proof.Proof.Gen.ReferenceIdeal.Run
import proofs.«425639_j46677704573718_2_alg».proof.Proof.Gen.ReferenceIdeal.Read
import proofs.«425639_j46677704573718_2_alg».proof.Proof.Gen.Pre_finite_inputs
import proofs.«425639_j46677704573718_2_alg».proof.Proof.Spec
import proofs.«425639_j46677704573718_2_alg».proof.Proof.HostDefs
import proofs.«425639_j46677704573718_2_alg».proof.Proof.LaunchValue
import proofs.«425639_j46677704573718_2_alg».proof.Proof.PreRange
import proofs.«425639_j46677704573718_2_alg».proof.Proof.Region0
import proofs.«425639_j46677704573718_2_alg».proof.Proof.Region1
import proofs.«425639_j46677704573718_2_alg».proof.Proof.HostFold
import proofs.«425639_j46677704573718_2_alg».proof.Proof.HostRead
import proofs.«425639_j46677704573718_2_alg».proof.Proof.RefValue
import proofs.«425639_j46677704573718_2_alg».proof.Proof.Algebra
import Idealize.ShloMosaic.Adequacy
import Idealize.ShloMosaic.Init

noncomputable section

namespace Cert.Proof

open Idealize.ShloMosaic Idealize.SL.Sem

/-- The word-level kernel's frame is the generated frame. -/
theorem frame_k : Cert.frame_Kernel := fun m ρ _ => Cert.Kernel.Gen.frame m ρ
/-- The idealized kernel's frame is the generated frame. -/
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the same extended real: the kernel's run leaves its result buffer at the fold's last boundary,
    which is the coordinate formula `kernelVal` of the two arguments; the reference's run leaves `refVal` of arguments that
    agree; under the precondition every label is one of the eight classes, where the two formulas agree. -/
theorem algebraic : Cert.algebraic_KernelIdeal_ReferenceIdeal := by
  intro m ρ m' ρ' hpre hagree
  have hL : ∀ (c : Dev Cert.KernelIdeal.nD) (b : Fin 4) (n : Fin 262144), ∃ k : Fin 8,
      Cert.Spec.Lof (m ((c.tc : Thread Cert.KernelIdeal.nD Cert.KernelIdeal.τ).loc Cert.KernelIdeal.main_arg1)) b n
        = BitVec.ofNat 32 k.val := fun c b n => Cert.PreRange.labels m hpre c _
  refine ⟨fun c => fun _ => Cert.Spec.kernelVal
      (Cert.Spec.Xof (m ((c.tc : Thread Cert.KernelIdeal.nD Cert.KernelIdeal.τ).loc Cert.KernelIdeal.main_arg0)))
      (Cert.Spec.Lof (m ((c.tc : Thread Cert.KernelIdeal.nD Cert.KernelIdeal.τ).loc Cert.KernelIdeal.main_arg1))), ?_, ?_⟩
  · refine (θ_run Cert.KernelIdeal.defs _ _).mono (fun r h c => ⟨(h c).1.trans ?_, (h c).2.1, (h c).2.2⟩)
      (Cert.KernelIdeal.Gen.run_value (F := Ideal) m ρ)
    rw [Cert.KernelIdeal.HostV.W5_result m ρ c Cert.KernelIdeal.R0.region0_arr Cert.KernelIdeal.R1.region1_arr,
      Cert.KernelIdeal.HostV.kernelTerm_eq]
    rfl
  · refine (θ_run Cert.ReferenceIdeal.defs _ _).mono (fun r h c => ⟨(h c).1.trans ?_, (h c).2.1, (h c).2.2⟩)
      (Cert.ReferenceIdeal.Value.run (F := Ideal) m' ρ')
    rw [Cert.ReferenceIdeal.Read.val_main_v43_eq, Cert.ReferenceIdeal.RefV.ref_value, (hagree c).1, (hagree c).2]
    exact funext fun _ => (Cert.Spec.kernelVal_eq_refVal _ _ (hL c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
